-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x64 : Shape := ⟨3, ![1, 10000, 64]⟩
abbrev S1x3x500000x64 : Shape := ⟨4, ![1, 3, 500000, 64]⟩
abbrev S64 : Shape := ⟨1, ![64]⟩
abbrev S1 : Shape := ⟨1, ![1]⟩
abbrev S500000 : Shape := ⟨1, ![500000]⟩
abbrev S_ : Shape := ⟨0, ![]⟩

class Facts : Prop where
  bcast_S_S1x10000x64 : S_.BroadcastsInDim S1x10000x64 (![] : Fin 0 → Fin S1x10000x64.rank)
  reducesTo_S1x10000x64_S_d0_1_2 : S1x10000x64.ReducesTo [0, 1, 2] S_
  h_S_ : 0 < S_.numel
  bcast_S_S1x3x500000x64 : S_.BroadcastsInDim S1x3x500000x64 (![] : Fin 0 → Fin S1x3x500000x64.rank)
  reducesTo_S1x3x500000x64_S_d0_1_2_3 : S1x3x500000x64.ReducesTo [0, 1, 2, 3] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : IVec S500000 32) (main_v28 : IVec S_ 1) (main_v33 : IVec S500000 1) : IVec S_ 1 :=
  let main_c_12 : IVec S_ 1 := constantI S_ 1 1#1
  let main_v34 : IVec S_ 1 := (fun x v => Host.reduce IntOp.andi x v reducesTo_S500000_S_d0 h_S_) main_v33 main_c_12
  let main_v35 : IVec S_ 1 := andi main_v28 main_v34
  let main_c_13 : IVec S_ 32 := constantI S_ 32 0#32
  let main_v36 : IVec S500000 32 := broadcastInDim S500000 ![] bcast_S_S500000 main_c_13
  let main_v37 : IVec S500000 1 := cmpi .sge main_arg7 main_v36
  let main_c_14 : IVec S_ 32 := constantI S_ 32 10000#32
  let main_v38 : IVec S500000 32 := broadcastInDim S500000 ![] bcast_S_S500000 main_c_14
  let main_v39 : IVec S500000 1 := cmpi .slt main_arg7 main_v38
  let main_v40 : IVec S500000 1 := andi main_v37 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v35 main_v41
  main_v42

def fn_part1 {F : FTy → Type} [FloatOps F] (main_arg4 : FVec F S64 .f32) (main_arg5 : FVec F S1 .f32) (main_arg6 : IVec S500000 32) (main_arg7 : IVec S500000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg6 main_v29
  let main_c_11 : IVec S_ 32 := constantI S_ 32 10000#32
  let main_v31 : IVec S500000 32 := broadcastInDim S500000 ![] bcast_S_S500000 main_c_11
  let main_v32 : IVec S500000 1 := cmpi .slt main_arg6 main_v31
  let main_v33 : IVec S500000 1 := andi main_v30 main_v32
  fn_part2 (F := F) main_arg7 main_v28 main_v33

def fn {F : FTy → Type} [FloatOps F] (main_arg0 : FVec F S1x10000x64 .f32) (main_arg1 : FVec F S1x3x500000x64 .f32) (main_arg2 : FVec F S64 .f32) (main_arg3 : FVec F S64 .f32) (main_arg4 : FVec F S64 .f32) (main_arg5 : FVec F S1 .f32) (main_arg6 : IVec S500000 32) (main_arg7 : IVec S500000 32) : IVec S_ 1 :=
  let main_v0 : FVec F S1x10000x64 .f32 := Host.absf main_arg0
  let main_cst : FVec F S_ .f32 := constant S_ .f32 0x7F800000#32
  let main_v1 : FVec F S1x10000x64 .f32 := broadcastInDim S1x10000x64 ![] bcast_S_S1x10000x64 main_cst
  let main_v2 : IVec S1x10000x64 1 := cmpf .olt main_v0 main_v1
  let main_c : IVec S_ 1 := constantI S_ 1 1#1
  let main_v3 : IVec S_ 1 := (fun x v => Host.reduce IntOp.andi x v reducesTo_S1x10000x64_S_d0_1_2 h_S_) main_v2 main_c
  let main_v4 : FVec F S1x3x500000x64 .f32 := Host.absf main_arg1
  let main_cst_0 : FVec F S_ .f32 := constant S_ .f32 0x7F800000#32
  let main_v5 : FVec F S1x3x500000x64 .f32 := broadcastInDim S1x3x500000x64 ![] bcast_S_S1x3x500000x64 main_cst_0
  let main_v6 : IVec S1x3x500000x64 1 := cmpf .olt main_v4 main_v5
  let main_c_1 : IVec S_ 1 := constantI S_ 1 1#1
  let main_v7 : IVec S_ 1 := (fun x v => Host.reduce IntOp.andi x v reducesTo_S1x3x500000x64_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S1x10000x64 : Shape := ⟨3, ![1, 10000, 64]⟩
abbrev S1x3x500000x64 : Shape := ⟨4, ![1, 3, 500000, 64]⟩
abbrev S64 : Shape := ⟨1, ![64]⟩
abbrev S1 : Shape := ⟨1, ![1]⟩
abbrev S500000 : Shape := ⟨1, ![500000]⟩
abbrev S10000x64 : Shape := ⟨2, ![10000, 64]⟩
abbrev S3x500000x64 : Shape := ⟨3, ![3, 500000, 64]⟩
abbrev S1x1 : Shape := ⟨2, ![1, 1]⟩
abbrev S1x64 : Shape := ⟨2, ![1, 64]⟩
abbrev S10000 : Shape := ⟨1, ![10000]⟩
abbrev S10000x1 : Shape := ⟨2, ![10000, 1]⟩
abbrev S_ : Shape := ⟨0, ![]⟩
abbrev S500000x1 : Shape := ⟨2, ![500000, 1]⟩
abbrev S500000x64 : Shape := ⟨2, ![500000, 64]⟩
abbrev S2x3x10000 : Shape := ⟨3, ![2, 3, 10000]⟩
abbrev S1000x1 : Shape := ⟨2, ![1000, 1]⟩
abbrev S3x1000x64 : Shape := ⟨3, ![3, 1000, 64]⟩
abbrev S1000x64 : Shape := ⟨2, ![1000, 64]⟩
abbrev S1x3x10000 : Shape := ⟨3, ![1, 3, 10000]⟩
abbrev S1000x10000 : Shape := ⟨2, ![1000, 10000]⟩
abbrev S1x10000 : Shape := ⟨2, ![1, 10000]⟩
abbrev S1x1000x64 : Shape := ⟨3, ![1, 1000, 64]⟩
abbrev S1x1x64 : Shape := ⟨3, ![1, 1, 64]⟩
abbrev S3x1000 : Shape := ⟨2, ![3, 1000]⟩
abbrev S3x10000 : Shape := ⟨2, ![3, 10000]⟩

abbrev nBuf : Space → Nat
  | .hbm => 46
  | .vmem => 16
  | .smem => 0
  | _ => 0

abbrev bufTy : (tb : Table) → Fin (tcTables nBuf tb) → BufTy
  | .hbm, ⟨0, _⟩ => ⟨S1x10000x64, .f32⟩
  | .hbm, ⟨1, _⟩ => ⟨S1x3x500000x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1, .f32⟩
  | .hbm, ⟨6, _⟩ => ⟨S500000, .i32⟩
  | .hbm, ⟨7, _⟩ => ⟨S500000, .i32⟩
  | .hbm, ⟨8, _⟩ => ⟨S10000x64, .f32⟩
  | .hbm, ⟨9, _⟩ => ⟨S3x500000x64, .f32⟩
  | .hbm, ⟨10, _⟩ => ⟨S10000x64, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S1, .i32⟩
  | .hbm, ⟨26, _⟩ => ⟨S_, .i32⟩
  | .hbm, ⟨27, _⟩ => ⟨S500000x1, .i32⟩
  | .hbm, ⟨28, _⟩ => ⟨S500000x1, .i1⟩
  | .hbm, ⟨29, _⟩ => ⟨S1x1, .i32⟩
  | .hbm, ⟨30, _⟩ => ⟨S500000x1, .i32⟩
  | .hbm, ⟨31, _⟩ => ⟨S500000x1, .i1⟩
  | .hbm, ⟨32, _⟩ => ⟨S500000x1, .i1⟩
  | .hbm, ⟨33, _⟩ => ⟨S_, .i1⟩
  | .hbm, ⟨34, _⟩ => ⟨S500000, .i1⟩
  | .hbm, ⟨35, _⟩ => ⟨S500000x64, .f32⟩
  | .hbm, ⟨36, _⟩ => ⟨S500000x64, .i1⟩
  | .hbm, ⟨37, _⟩ => ⟨S_, .f32⟩
  | .hbm, ⟨38, _⟩ => ⟨S500000x64, .f32⟩
  | .hbm, ⟨39, _⟩ => ⟨S500000x64, .f32⟩
  | .hbm, ⟨40, _⟩ => ⟨S500000x1, .i32⟩
  | .hbm, ⟨41, _⟩ => ⟨S64, .f32⟩
  | .hbm, ⟨42, _⟩ => ⟨S2x3x10000, .f32⟩
  | .hbm, ⟨43, _⟩ => ⟨S_, .f32⟩
  | .hbm, ⟨44, _⟩ => ⟨S3x10000, .f32⟩
  | .hbm, ⟨45, _⟩ => ⟨S1x3x10000, .f32⟩
  | .local _ .vmem, ⟨0, _⟩ => ⟨S10000x64, .f32⟩
  | .local _ .vmem, ⟨1, _⟩ => ⟨S64, .f32⟩
  | .local _ .vmem, ⟨2, _⟩ => ⟨S64, .f32⟩
  | .local _ .vmem, ⟨3, _⟩ => ⟨S64, .f32⟩
  | .local _ .vmem, ⟨4, _⟩ => ⟨S10000x64, .f32⟩
  | .local _ .vmem, ⟨5, _⟩ => ⟨S1x1, .f32⟩
  | .local _ .vmem, ⟨6, _⟩ => ⟨S1000x1, .i32⟩
  | .local _ .vmem, ⟨7, _⟩ => ⟨S1000x1, .i32⟩
  | .local _ .vmem, ⟨8, _⟩ => ⟨S3x1000x64, .f32⟩
  | .local _ .vmem, ⟨9, _⟩ => ⟨S3x1000x64, .f32⟩
  | .local _ .vmem, ⟨10, _⟩ => ⟨S1000x64, .f32⟩
  | .local _ .vmem, ⟨11, _⟩ => ⟨S1000x64, .f32⟩
  | .local _ .vmem, ⟨12, _⟩ => ⟨S64, .f32⟩
  | .local _ .vmem, ⟨13, _⟩ => ⟨S1x3x10000, .f32⟩
  | .local _ .vmem, ⟨14, _⟩ => ⟨S1x3x10000, .f32⟩
  | .local _ .vmem, ⟨15, _⟩ => ⟨S1000x10000, .bf16⟩
  | _, _ => ⟨S1x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_v12 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 250], ![false, false]⟩

def cc1_transform_0 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x3x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x10000x64_S10000x64 : S1x10000x64.ShapeCasts S10000x64
  shapeCasts_S1x3x500000x64_S3x500000x64 : S1x3x500000x64.ShapeCasts S3x500000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  reduces_S10000x1_S1 : S10000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  bcast_S_S1 : S_.BroadcastsInDim S1 (![] : Fin 0 → Fin S1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  shapeCasts_S500000_S500000x1 : S500000.ShapeCasts S500000x1
  inb_S1x3x10000_S1x3x10000_0_0_0 : ∀ a, (![0, 0, 0] : Fin 3 → Nat) a + S1x3x10000.size a ≤ S1x3x10000.size a
  h_S1x3x10000 : 0 < S1x3x10000.numel
  iota_S1x10000_d1_w32 : S1x10000.Iotas .tc 32 [1]
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S3x1000x64_S3x1000x64_0_0_0 : ∀ a, (![0, 0, 0] : Fin 3 → Nat) a + S3x1000x64.size a ≤ S3x1000x64.size a
  h_S3x1000x64 : 0 < S3x1000x64.numel
  shapeCasts_S3x1000x64_S3x1000x64 : S3x1000x64.ShapeCasts S3x1000x64
  shapeCasts_S64_S64 : S64.ShapeCasts S64
  shapeCasts_S1000x64_S1x1000x64 : S1000x64.ShapeCasts S1x1000x64
  broadcasts_S1x1000x64_S3x1000x64 : S1x1000x64.Broadcasts S3x1000x64
  shapeCasts_S64_S1x1x64 : S64.ShapeCasts S1x1x64
  broadcasts_S1x1x64_S3x1000x64 : S1x1x64.Broadcasts S3x1000x64
  reduces_S3x1000x64_S3x1000 : S3x1000x64.Reduces [2] S3x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x10000 : S1000x1.Broadcasts S1000x10000
  broadcasts_S1x10000_S1000x10000 : S1x10000.Broadcasts S1000x10000
  natLt_1_32 : 1 < 32
  bitsLt_bf16_f32 : FTy.bits .bf16 < FTy.bits .f32
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  packedbf16_S1000x10000_S1000x10000_0_0 : (Rect.unit (s := S1000x10000) ![0, 0] S1000x10000.size inb_S1000x10000_S1000x10000_0_0).PackedRows (EltTy.packing .bf16)
  shapeCasts_S1x3x10000_S1x3x10000 : S1x3x10000.ShapeCasts S1x3x10000
  shapeCasts_S3x10000_S1x3x10000 : S3x10000.ShapeCasts S1x3x10000
  reducesTo_S2x3x10000_S3x10000_d0 : S2x3x10000.ReducesTo [0] S3x10000
  bcast_S3x10000_S1x3x10000_1_2 : S3x10000.BroadcastsInDim S1x3x10000 (![1, 2] : Fin 2 → Fin S1x3x10000.rank)
  gather_S10000x64_S500000x1_S500000x64_1_0_n_n_0_1_164_wf : GatherDims.WF S10000x64 S500000x1 S500000x64 [1] [0] [] [0] [] 1 ![1, 64]
  dot_S3x1000_S1000x10000_S3x10000_1_0_0_1_n_n_wf : DotDims.WF S3x1000 S1000x10000 S3x10000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S10000x64.size a
  hwx0_0 : ∀ i : grid0.Coords, EltTy.bits .f32 = 32 ∨ (Rect.block (s := S10000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S10000x64.size a
  hwx0_4 : ∀ i : grid0.Coords, EltTy.bits .f32 = 32 ∨ (Rect.block (s := S10000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1.size a ≤ S500000x1.size a
  hwx1_0 : ∀ i : grid1.Coords, EltTy.bits .i32 = 32 ∨ (Rect.block (s := S500000x1) S1000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1000x64.size a ≤ S3x500000x64.size a
  hwx1_1 : ∀ i : grid1.Coords, EltTy.bits .f32 = 32 ∨ (Rect.block (s := S3x500000x64) S3x1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S500000x64.size a
  hwx1_2 : ∀ i : grid1.Coords, EltTy.bits .f32 = 32 ∨ (Rect.block (s := S500000x64) S1000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x3x10000.size a ≤ S2x3x10000.size a
  hwx1_4 : ∀ i : grid1.Coords, EltTy.bits .f32 = 32 ∨ (Rect.block (s := S2x3x10000) S1x3x10000.size (cc1_transform_4 i) (hinb1_4 i)).WholeWords (EltTy.packing .f32)

variable [Facts₀]

def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def dot_S3x1000_S1000x10000_S3x10000_1_0_0_1_n_n : DotDims S3x1000 S1000x10000 S3x10000 where
  lhsContracting := [1]
  rhsContracting := [0]
  lhsNonContracting := [0]
  rhsNonContracting := [1]
  lhsBatch := []
  rhsBatch := []
  wf := dot_S3x1000_S1000x10000_S3x10000_1_0_0_1_n_n_wf

abbrev win0_0 : Pipeline.Window sig grid0 :=
  Pipeline.Window.ofSpec (Memref.whole main_v0) S10000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S10000x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S3x1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x3x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x10000x64 : Shape := ⟨3, ![1, 10000, 64]⟩
abbrev S1x3x500000x64 : Shape := ⟨4, ![1, 3, 500000, 64]⟩
abbrev S64 : Shape := ⟨1, ![64]⟩
abbrev S1 : Shape := ⟨1, ![1]⟩
abbrev S500000 : Shape := ⟨1, ![500000]⟩
abbrev S1x1x64 : Shape := ⟨3, ![1, 1, 64]⟩
abbrev S_ : Shape := ⟨0, ![]⟩
abbrev S500000x1 : Shape := ⟨2, ![500000, 1]⟩
abbrev S1x500000x64 : Shape := ⟨3, ![1, 500000, 64]⟩
abbrev S1x1x500000x64 : Shape := ⟨4, ![1, 1, 500000, 64]⟩
abbrev S1x1x1x64 : Shape := ⟨4, ![1, 1, 1, 64]⟩
abbrev S1x3x500000 : Shape := ⟨3, ![1, 3, 500000]⟩
abbrev S1x3x10000 : Shape := ⟨3, ![1, 3, 10000]⟩

abbrev nBuf : Space → Nat
  | .hbm => 60
  | .vmem => 0
  | .smem => 0
  | _ => 0

abbrev bufTy : (tb : Table) → Fin (tcTables nBuf tb) → BufTy
  | .hbm, ⟨0, _⟩ => ⟨S1x10000x64, .f32⟩
  | .hbm, ⟨1, _⟩ => ⟨S1x3x500000x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1, .f32⟩
  | .hbm, ⟨6, _⟩ => ⟨S500000, .i32⟩
  | .hbm, ⟨7, _⟩ => ⟨S500000, .i32⟩
  | .hbm, ⟨8, _⟩ => ⟨S1x1x64, .f32⟩
  | .hbm, ⟨9, _⟩ => ⟨S1x10000x64, .f32⟩
  | .hbm, ⟨10, _⟩ => ⟨S1x10000x64, .f32⟩
  | .hbm, ⟨11, _⟩ => ⟨S1x1x64, .f32⟩
  | .hbm, ⟨12, _⟩ => ⟨S1x10000x64, .f32⟩
  | .hbm, ⟨13, _⟩ => ⟨S1x10000x64, .f32⟩
  | .hbm, ⟨14, _⟩ => ⟨S1x10000x64, .f32⟩
  | .hbm, ⟨15, _⟩ => ⟨S1x10000x64, .f32⟩
  | .hbm, ⟨16, _⟩ => ⟨S_, .f32⟩
  | .hbm, ⟨17, _⟩ => ⟨S1x10000x64, .f32⟩
  | .hbm, ⟨18, _⟩ => ⟨S1x10000x64, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S1x500000x64, .f32⟩
  | .hbm, ⟨28, _⟩ => ⟨S1x1x500000x64, .f32⟩
  | .hbm, ⟨29, _⟩ => ⟨S1x1x1x64, .f32⟩
  | .hbm, ⟨30, _⟩ => ⟨S1x3x500000x64, .f32⟩
  | .hbm, ⟨31, _⟩ => ⟨S1x3x500000x64, .f32⟩
  | .hbm, ⟨32, _⟩ => ⟨S1x3x500000x64, .f32⟩
  | .hbm, ⟨33, _⟩ => ⟨S1x3x500000x64, .f32⟩
  | .hbm, ⟨34, _⟩ => ⟨S1x1x64, .f32⟩
  | .hbm, ⟨35, _⟩ => ⟨S1x10000x64, .f32⟩
  | .hbm, ⟨36, _⟩ => ⟨S1x10000x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1x1x1x64, .f32⟩
  | .hbm, ⟨44, _⟩ => ⟨S1x3x500000x64, .f32⟩
  | .hbm, ⟨45, _⟩ => ⟨S1x3x500000x64, .f32⟩
  | .hbm, ⟨46, _⟩ => ⟨S_, .f32⟩
  | .hbm, ⟨47, _⟩ => ⟨S1x3x500000, .f32⟩
  | .hbm, ⟨48, _⟩ => ⟨S1x3x500000, .f32⟩
  | .hbm, ⟨49, _⟩ => ⟨S_, .f32⟩
  | .hbm, ⟨50, _⟩ => ⟨S1x3x10000, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S1x3x10000, .f32⟩
  | _, _ => ⟨S1x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S1x10000x64_0_1_2 : S1x1x64.BroadcastsInDim S1x10000x64 (![0, 1, 2] : Fin 3 → Fin S1x10000x64.rank)
  bcast_S_S1x10000x64 : S_.BroadcastsInDim S1x10000x64 (![] : Fin 0 → Fin S1x10000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S1x500000x64_S1x1x500000x64_0_2_3 : S1x500000x64.BroadcastsInDim S1x1x500000x64 (![0, 2, 3] : Fin 3 → Fin S1x1x500000x64.rank)
  bcast_S64_S1x1x1x64_3 : S64.BroadcastsInDim S1x1x1x64 (![3] : Fin 1 → Fin S1x1x1x64.rank)
  bcast_S1x1x1x64_S1x3x500000x64_0_1_2_3 : S1x1x1x64.BroadcastsInDim S1x3x500000x64 (![0, 1, 2, 3] : Fin 4 → Fin S1x3x500000x64.rank)
  bcast_S1x1x500000x64_S1x3x500000x64_0_1_2_3 : S1x1x500000x64.BroadcastsInDim S1x3x500000x64 (![0, 1, 2, 3] : Fin 4 → Fin S1x3x500000x64.rank)
  reducesTo_S1x10000x64_S_d0_1_2 : S1x10000x64.ReducesTo [0, 1, 2] S_
  h_S_ : 0 < S_.numel
  bcast_S_S1 : S_.BroadcastsInDim S1 (![] : Fin 0 → Fin S1.rank)
  reducesTo_S1x3x500000x64_S1x3x500000_d3 : S1x3x500000x64.ReducesTo [3] S1x3x500000
  bcast_S_S1x3x10000 : S_.BroadcastsInDim S1x3x10000 (![] : Fin 0 → Fin S1x3x10000.rank)
  gather_S1x10000x64_S500000x1_S1x500000x64_02_1_n_n_1_1_1164_wf : GatherDims.WF S1x10000x64 S500000x1 S1x500000x64 [0, 2] [1] [] [1] [] 1 ![1, 1, 64]
  scatter_S1x3x10000_S500000x1_S1x3x500000_01_2_2_1_wf : ScatterDims.WF S1x3x10000 S500000x1 S1x3x500000 [0, 1] [2] [2] 1

variable [Facts₀]

def gather_S1x10000x64_S500000x1_S1x500000x64_02_1_n_n_1_1_1164 : GatherDims S1x10000x64 S500000x1 S1x500000x64 where
  offsetDims := [0, 2]
  collapsedSliceDims := [1]
  operandBatchingDims := []
  startIndicesBatchingDims := []
  startIndexMap := [1]
  indexVectorDim := 1
  sliceSizes := ![1, 1, 64]
  wf := gather_S1x10000x64_S500000x1_S1x500000x64_02_1_n_n_1_1_1164_wf
def scatter_S1x3x10000_S500000x1_S1x3x500000_01_2_2_1 : ScatterDims S1x3x10000 S500000x1 S1x3x500000 where
  updateWindowDims := [0, 1]
  insertedWindowDims := [2]
  scatterDimsToOperandDims := [2]
  indexVectorDim := 1
  wf := scatter_S1x3x10000_S500000x1_S1x3x500000_01_2_2_1_wf

class Facts : Prop extends Facts₀ where

variable [Facts]
-- ==== Proof.Spec.lean ====
/-
  What both programs compute, as functions of the argument arrays over the extended reals.

  Atom `n` has 64 descriptors `x n d`. Its activations are `a n d = tanh (x n d · w1 d + b1 d)`, and the slope of the
  activation is `s n d = 1 - a n d · a n d`.
  The energy is the mean of `a n d · wl d` over the 10000 atoms (the sum over all atoms and descriptors divided by
  10000) plus the bias `bl`.
  Pair `p` has a central atom `ci p` and a neighbour atom `ni p`. Its force along direction `k` is
  `-(∑ d, s (ci p) d · (cd k p d · w1 d) · wl d)`, and the force on atom `a` along `k` is the sum of the pair forces of
  the pairs whose neighbour atom is `a`.
-/
import Idealize.ShloMosaic.PureOps.Ideal
import Idealize.ShloMosaic.PureOps.Ideal.Laws
import Idealize.ShloMosaic.Lib.ValueIdx

noncomputable section

open scoped BigOperators

namespace PairForces

open Idealize.ShloMosaic Idealize.ShloMosaic.ValueIdx

abbrev SCoef : Shape := ⟨3, ![1, 10000, 64]⟩
abbrev SDeriv : Shape := ⟨4, ![1, 3, 500000, 64]⟩
abbrev SDesc : Shape := ⟨1, ![64]⟩
abbrev SOne : Shape := ⟨1, ![1]⟩
abbrev SPair : Shape := ⟨1, ![500000]⟩
abbrev SForce : Shape := ⟨3, ![1, 3, 10000]⟩

/-- The atom a 32-bit word names: read signed, clamped into `[0, 9999]`. -/
def atomOf (b : BitVec 32) : Fin 10000 := ⟨min b.toInt.toNat 9999, by omega⟩

/-- Every entry of an index array, read signed, names an atom. -/
def InRange (idx : SPair.Idx → BitVec 32) : Prop :=
  ∀ p : Fin 500000, 0 ≤ (idx (ix1 p)).toInt ∧ (idx (ix1 p)).toInt < 10000

section
variable (x : SCoef.Idx → EReal) (cd : SDeriv.Idx → EReal) (w1 b1 wl : SDesc.Idx → EReal) (bl : SOne.Idx → EReal)
  (ci ni : SPair.Idx → BitVec 32)

/-- The activation of descriptor `d` of atom `n`. -/
def act (n : Fin 10000) (d : Fin 64) : EReal := Ideal.tanh (x (ix3 0 n d) * w1 (ix1 d) + b1 (ix1 d))

/-- The slope of the activation there: one minus its square. -/
def slope (n : Fin 10000) (d : Fin 64) : EReal :=
  Ideal.ofBits .f32 0x3F800000#32 - act x w1 b1 n d * act x w1 b1 n d

/-- The weighted activations summed over every atom and descriptor. -/
def total : EReal := ∑ n : Fin 10000, ∑ d : Fin 64, act x w1 b1 n d * wl (ix1 d)

/-- The energy: the total over the number of atoms, plus the bias. -/
def energy : SOne.Idx → EReal := fun j => Ideal.div (total x w1 b1 wl) (Ideal.ofBits .f32 0x461C4000#32) + bl j

/-- The force of pair `p` along direction `k`. -/
def pairForce (k : Fin 3) (p : Fin 500000) : EReal :=
  -(∑ d : Fin 64, slope x w1 b1 (atomOf (ci (ix1 p))) d * (cd (ix4 0 k p d) * w1 (ix1 d)) * wl (ix1 d))

/-- The force on each atom along each direction: the pair forces of the pairs whose neighbour is that atom. -/
def force : SForce.Idx → EReal := fun j =>
  ∑ p : Fin 500000, if (ni (ix1 p)).toInt = ((j 2).val : Int) then pairForce x cd w1 b1 wl ci (j 1) p else 0

end

/-- The indices of a `[1, 10000, 64]` array are the pairs (atom, descriptor): the leading axis has one coordinate. -/
def coefEquiv : SCoef.Idx ≃ Fin 10000 × Fin 64 where
  toFun i := (i 1, i 2)
  invFun p := ix3 0 p.1 p.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl

/-- A sum over the indices of a `[1, 10000, 64]` array, atom by atom and descriptor by descriptor. -/
theorem sum_coef {M : Type*} [AddCommMonoid M] (f : SCoef.Idx → M) :
    ∑ i : SCoef.Idx, f i = ∑ n : Fin 10000, ∑ d : Fin 64, f (ix3 0 n d) := by
  rw [← Equiv.sum_comp coefEquiv.symm f, Fintype.sum_prod_type]
  rfl

/-- Pair number `(c · 250 + i) · 1000 + q`: pair `q` of block `i` of half `c`. -/
def pairAt (c : Fin 2) (i : Fin 250) (q : Fin 1000) : Fin 500000 :=
  ⟨(c.val * 250 + i.val) * 1000 + q.val, by have := c.isLt; have := i.isLt; have := q.isLt; omega⟩

/-- Every pair number is `(c · 250 + i) · 1000 + q` for exactly one half `c`, block `i` and place `q`. -/
def pairEquiv : Fin 2 × Fin 250 × Fin 1000 ≃ Fin 500000 where
  toFun t := pairAt t.1 t.2.1 t.2.2
  invFun p := (⟨p.val / 250000, by have := p.isLt; omega⟩, ⟨p.val / 1000 % 250, by omega⟩, ⟨p.val % 1000, by omega⟩)
  left_inv t := by
    obtain ⟨c, i, q⟩ := t
    have hc := c.isLt; have hi := i.isLt; have hq := q.isLt
    refine Prod.ext (Fin.ext ?_) (Prod.ext (Fin.ext ?_) (Fin.ext ?_))
    · show ((c.val * 250 + i.val) * 1000 + q.val) / 250000 = c.val; omega
    · show ((c.val * 250 + i.val) * 1000 + q.val) / 1000 % 250 = i.val; omega
    · show ((c.val * 250 + i.val) * 1000 + q.val) % 1000 = q.val; omega
  right_inv p := by
    have hp := p.isLt
    refine Fin.ext ?_
    show (p.val / 250000 * 250 + p.val / 1000 % 250) * 1000 + p.val % 1000 = p.val
    omega

/-- A sum over the 500000 pairs, taken half by half, block by block. -/
theorem sum_pairs {M : Type*} [AddCommMonoid M] (g : Fin 500000 → M) :
    ∑ p : Fin 500000, g p = ∑ c : Fin 2, ∑ i : Fin 250, ∑ q : Fin 1000, g (pairAt c i q) := by
  rw [← Equiv.sum_comp pairEquiv g, Fintype.sum_prod_type]
  refine Finset.sum_congr rfl fun c _ => ?_
  rw [Fintype.sum_prod_type]
  rfl

end PairForces

end
-- ==== Proof.PreDecode.lean ====
/-
  The precondition's two index-range conjuncts, read back.

  The precondition is one bit: a chain of one-bit "and"s whose last two members are, for the central-atom array and then for
  the neighbour-atom array, the "and" over all 500000 pairs of the two signed tests  0 ≤ word  and  word < 10000.
  A one-bit "and" is 1 exactly when both members are; an "and" over all entries that is 1 had a 1 at every entry; and the
  two signed tests at a word say that its signed value lies in [0, 10000). The float conjuncts of the chain are never
  opened: only the last two members are used.
-/
import proofs.«426470_j1975684956437_3_alg».proof.Pre_finite_inputs
import proofs.«426470_j1975684956437_3_alg».proof.Proof.Gen.Pre_finite_inputs
import proofs.«426470_j1975684956437_3_alg».proof.Proof.Spec
import Idealize.ShloMosaic.Lib.ReduceAll
import Idealize.ShloMosaic.Lib.StableHlo.Predicate

namespace Cert.PreDecode

open Cert.Pre_finite_inputs PairForces Idealize.ShloMosaic Idealize.ShloMosaic.ValueIdx

/-- A rank-0 array has exactly one index. -/
private instance scalarIdx : Subsingleton S_.Idx := ⟨fun a b => funext fun d => d.elim0⟩

/-- The signed values of the two bounds. -/
private theorem toInt_lo : (0#32 : BitVec 32).toInt = 0 := by decide
private theorem toInt_hi : (10000#32 : BitVec 32).toInt = 10000 := by decide

/-- One range conjunct: if the "and" over all pairs of (0 ≤ word) and (word < 10000), both signed, is 1, then every word
    of the array, read signed, lies in [0, 10000). -/
private theorem inRange_of_all [Facts] (a : IVec S500000 32) (init : IVec S_ 1)
    (e : Host.reduce IntOp.andi
        (andi (cmpi .sge a (broadcastInDim S500000 ![] Facts.bcast_S_S500000 (constantI S_ 32 0#32)))
          (cmpi .slt a (broadcastInDim S500000 ![] Facts.bcast_S_S500000 (constantI S_ 32 10000#32))))
        init Facts.reducesTo_S500000_S_d0 Facts.h_S_ ix0 = 1#1) : InRange a := by
  intro p
  -- the entry of the tested array at pair p: both tests hold there
  have hp : IntOp.andi (IntOp.cmpi .sge (a (ix1 p)) 0#32) (IntOp.cmpi .slt (a (ix1 p)) 10000#32) = 1#1 :=
    Host.reduce_andi_all _ _ _ _ _ e (ix1 p)
  obtain ⟨hlo, hhi⟩ := IntOp.andi_eq_one.1 hp
  have hlo' := IntOp.cmpi_sge.1 hlo
  have hhi' := IntOp.cmpi_slt.1 hhi
  rw [toInt_lo] at hlo'
  rw [toInt_hi] at hhi'
  exact ⟨hlo', hhi'⟩

/-- The precondition gives both index arrays in range. -/
theorem inRange_of_pre {F : FTy → Type} [FloatOps F] (a0 : FVec F S1x10000x64 .f32) (a1 : FVec F S1x3x500000x64 .f32)
    (a2 a3 a4 : FVec F S64 .f32) (a5 : FVec F S1 .f32) (a6 a7 : IVec S500000 32)
    (h : Cert.Pre_finite_inputs.fn (F := F) a0 a1 a2 a3 a4 a5 a6 a7 = fun _ => 1#1) : InRange a6 ∧ InRange a7 := by
  have e := congrFun h ix0
  dsimp only [fn, fn_part1, fn_part2] at e
  -- the chain ends  ((… ∧ all6) ∧ all7): peel the last two members off
  obtain ⟨e6, e7⟩ := IntOp.andi_eq_one.1 e
  obtain ⟨-, e6⟩ := IntOp.andi_eq_one.1 e6
  exact ⟨inRange_of_all a6 _ e6, inRange_of_all a7 _ e7⟩

end Cert.PreDecode
-- ==== Proof.RefPair.lean ====
/-
  The reference program as the specification's functions: its energy, and the force it computes for one pair.

  The reference forms, atom by atom and descriptor by descriptor, the activation tanh (x · w1 + b1) and its slope
  1 − a · a. The energy is the sum of every weighted activation divided by the number of atoms, plus the bias. The
  force of a pair along a direction is minus the sum over the descriptors of the slope at the pair's central atom
  times the descriptor's derivative times w1 times the last weight. The central atom is read by a gather whose start
  index is the pair's central-atom word: a word that names an atom is not negative, so the wrap-around of negative
  indices leaves it alone, and the gather's clamp of the start index is the specification's clamp.
-/
import proofs.«426470_j1975684956437_3_alg».proof.Proof.Gen.ReferenceIdeal.Read
import proofs.«426470_j1975684956437_3_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefPair

open Cert.ReferenceIdeal Cert.ReferenceIdeal.Gen PairForces Idealize.ShloMosaic Idealize.ShloMosaic.ValueIdx

/-! ## The per-atom arrays at an index -/

section Atoms
variable (x0 : SCoef.Idx → EReal) (x2 x3 x4 : SDesc.Idx → EReal)

/-- A descriptor array broadcast over the atoms reads its own entry at descriptor d. -/
private theorem w1_at (n : Fin 10000) (d : Fin 64) :
    Read.val_main_v1 (F := Ideal) x2 (ix3 0 n d) = x2 (ix1 d) := by
  rw [Read.val_main_v1_apply, Read.val_main_v0_apply]
  exact congrArg x2 (funext fun a => match a with | ⟨0, _⟩ => rfl)

private theorem b1_at (n : Fin 10000) (d : Fin 64) :
    Read.val_main_v4 (F := Ideal) x3 (ix3 0 n d) = x3 (ix1 d) := by
  rw [Read.val_main_v4_apply, Read.val_main_v3_apply]
  exact congrArg x3 (funext fun a => match a with | ⟨0, _⟩ => rfl)

private theorem wl_at (n : Fin 10000) (d : Fin 64) :
    Read.val_main_v24 (F := Ideal) x4 (ix3 0 n d) = x4 (ix1 d) := by
  rw [Read.val_main_v24_apply, Read.val_main_v23_apply]
  exact congrArg x4 (funext fun a => match a with | ⟨0, _⟩ => rfl)

/-- The tanh stage at atom n, descriptor d is the activation. -/
private theorem act_at (n : Fin 10000) (d : Fin 64) :
    Read.val_main_v6 (F := Ideal) x0 x2 x3 (ix3 0 n d) = act x0 x2 x3 n d := by
  rw [Read.val_main_v6_apply, Read.val_main_v5_apply, Read.val_main_v2_apply, w1_at, b1_at]
  rfl

/-- One minus the square of the tanh stage is the slope. -/
private theorem slope_at (n : Fin 10000) (d : Fin 64) :
    Read.val_main_v9 (F := Ideal) x0 x2 x3 (ix3 0 n d) = slope x0 x2 x3 n d := by
  rw [Read.val_main_v9_apply, Read.val_main_v8_apply, Read.val_main_cst_apply, Read.val_main_v7_apply, act_at]
  rfl

/-- The weighted tanh stage is the activation times the last weight. -/
private theorem weighted_at (n : Fin 10000) (d : Fin 64) :
    Read.val_main_v25 (F := Ideal) x0 x2 x3 x4 (ix3 0 n d) = act x0 x2 x3 n d * x4 (ix1 d) := by
  rw [Read.val_main_v25_apply, act_at, wl_at]
  rfl

end Atoms

/-! ## The energy -/

theorem energy_eq (x0 : SCoef.Idx → EReal) (x2 x3 x4 : SDesc.Idx → EReal) (x5 : SOne.Idx → EReal) :
    Cert.ReferenceIdeal.Read.val_main_v29 (F := Ideal) x0 x2 x3 x4 x5 = energy x0 x2 x3 x4 x5 := by
  funext j
  rw [Read.val_main_v29_apply, Read.val_main_v28_apply, Read.val_main_v27_apply, Read.val_main_v26_apply,
    Read.val_main_cst_1_apply, Read.val_main_cst_2_apply, PairForces.sum_coef]
  simp only [weighted_at]
  rw [Ideal.ofBits_def, Ideal.ofBits_zero_f32, zero_add]
  rfl

/-! ## The gather of the central atoms' rows -/

section Gather
variable {α : Type}

/-- The reference's gather: operand [1, 10000, 64], start indices [500000, 1], result [1, 500000, 64]. -/
private abbrev gd : GatherDims S1x10000x64 S500000x1 S1x500000x64 :=
  gather_S1x10000x64_S500000x1_S1x500000x64_02_1_n_n_1_1_1164

/-- Entry (0, p, d) of the gather is the operand at row atomOf (idx (p, 0)), column d: axis 1 of the operand is the
    one the start index names (and the one the slice collapses), axes 0 and 2 are copied whole. -/
private theorem gather_at (x : S1x10000x64.Idx → α) (idx : IVec S500000x1 32) (p : Fin 500000) (d : Fin 64) :
    Host.gather gd x idx (ix3 0 p d) = x (ix3 0 (atomOf (idx (ix2 p 0))) d) := by
  unfold Host.gather
  congr 1
  funext a
  refine Fin.ext ?_
  match a with
  | ⟨0, _⟩ =>
    -- not named by the start index, kept by the slice: the result's coordinate on its first offset axis
    show gd.start (ix3 0 p d) idx 0 + gd.batchCoord (ix3 0 p d) 0 + gd.offCoord (ix3 0 p d) 0 = 0
    rw [GatherDims.batchCoord_eq_zero _ _ _ List.not_mem_nil]
    unfold GatherDims.start
    rw [dif_neg (show (0 : Fin 3) ∉ gd.startIndexMap from by show (0 : Fin 3) ∉ [(1 : Fin 3)]; decide)]
    unfold GatherDims.offCoord
    rw [dif_pos (show (0 : Fin 3) ∈ gd.sKept from by
      show (0 : Fin 3) ∈ (List.finRange 3).filter (fun a => a ∉ [(1 : Fin 3)] ++ []); decide)]
    rfl
  | ⟨1, _⟩ =>
    -- named by the start index and collapsed: the clamped start alone
    show gd.start (ix3 0 p d) idx 1 + gd.batchCoord (ix3 0 p d) 1 + gd.offCoord (ix3 0 p d) 1
      = min (idx (ix2 p 0)).toInt.toNat 9999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 0 p d) ⟨List.idxOf (1 : Fin 3) gd.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨2, _⟩ =>
    -- not named by the start index, kept by the slice: the result's coordinate on its second offset axis
    show gd.start (ix3 0 p d) idx 2 + gd.batchCoord (ix3 0 p d) 2 + gd.offCoord (ix3 0 p d) 2 = d.val
    rw [GatherDims.batchCoord_eq_zero _ _ _ List.not_mem_nil]
    unfold GatherDims.start
    rw [dif_neg (show (2 : Fin 3) ∉ gd.startIndexMap from by show (2 : Fin 3) ∉ [(1 : Fin 3)]; decide)]
    unfold GatherDims.offCoord
    rw [dif_pos (show (2 : Fin 3) ∈ gd.sKept from by
      show (2 : Fin 3) ∈ (List.finRange 3).filter (fun a => a ∉ [(1 : Fin 3)] ++ []); decide)]
    simp only [Nat.zero_add]
    rfl

end Gather

/-! ## The force of one pair -/

/-- A word whose signed value is not negative is not below zero in the signed order. -/
private theorem cmpi_slt_zero {a : BitVec 32} (h : 0 ≤ a.toInt) : IntOp.cmpi .slt a 0#32 = 0#1 := by
  have hf : a.slt 0#32 = false :=
    Bool.eq_false_iff.mpr fun hh => by
      have := BitVec.slt_iff_toInt_lt.mp hh
      rw [BitVec.toInt_zero] at this
      omega
  show BitVec.ofBool (a.slt 0#32) = 0#1
  rw [hf]
  rfl

section Pair
variable (x0 : SCoef.Idx → EReal) (x1 : SDeriv.Idx → EReal) (x2 x3 x4 : SDesc.Idx → EReal) (x6 : SPair.Idx → BitVec 32)

/-- The start index of pair p is its central-atom word: the word is not negative, so the wrap-around leaves it. -/
private theorem start_at (h6 : InRange x6) (p : Fin 500000) :
    Read.val_main_v15 (F := Ideal) x6 (ix2 p 0) = x6 (ix1 p) := by
  have hi : Read.idx_main_v15 (ix2 p (0 : Fin 1)) = ix1 p := funext fun a => match a with | ⟨0, _⟩ => rfl
  rw [Read.val_main_v15_apply, hi, Read.val_main_v14_apply, Read.val_main_v11_apply, Read.val_main_v10_apply,
    Read.val_main_c_apply, cmpi_slt_zero (h6 p).1, select_zero]

/-- The gathered row of pair p is the slope row of its central atom. -/
private theorem central_at (h6 : InRange x6) (p : Fin 500000) (d : Fin 64) :
    Read.val_main_v16 (F := Ideal) x0 x2 x3 x6 (ix3 0 p d) = slope x0 x2 x3 (atomOf (x6 (ix1 p))) d := by
  unfold Read.val_main_v16
  rw [gather_at, start_at x6 h6, slope_at]

/-- Broadcast over the three directions, the gathered row is still read at (p, d). -/
private theorem central4_at (k : Fin 3) (p : Fin 500000) (d : Fin 64) :
    Read.val_main_v21 (F := Ideal) x0 x2 x3 x6 (ix4 0 k p d) = Read.val_main_v16 (F := Ideal) x0 x2 x3 x6 (ix3 0 p d) := by
  rw [Read.val_main_v21_apply, Read.val_main_v17_apply]
  exact congrArg _ (funext fun a => match a with | ⟨0, _⟩ => rfl | ⟨1, _⟩ => rfl | ⟨2, _⟩ => rfl)

/-- A descriptor array broadcast over directions and pairs reads its own entry at descriptor d. -/
private theorem w1p_at (k : Fin 3) (p : Fin 500000) (d : Fin 64) :
    Read.val_main_v19 (F := Ideal) x2 (ix4 0 k p d) = x2 (ix1 d) := by
  rw [Read.val_main_v19_apply, Read.val_main_v18_apply]
  exact congrArg x2 (funext fun a => match a with | ⟨0, _⟩ => rfl)

private theorem wlp_at (k : Fin 3) (p : Fin 500000) (d : Fin 64) :
    Read.val_main_v31 (F := Ideal) x4 (ix4 0 k p d) = x4 (ix1 d) := by
  rw [Read.val_main_v31_apply, Read.val_main_v30_apply]
  exact congrArg x4 (funext fun a => match a with | ⟨0, _⟩ => rfl)

/-- The summand of pair p, direction k at descriptor d. -/
private theorem summand_at (h6 : InRange x6) (k : Fin 3) (p : Fin 500000) (d : Fin 64) :
    Read.val_main_v32 (F := Ideal) x0 x1 x2 x3 x4 x6 (Read.idx_main_v33 (ix3 0 k p) d)
      = slope x0 x2 x3 (atomOf (x6 (ix1 p))) d * (x1 (ix4 0 k p d) * x2 (ix1 d)) * x4 (ix1 d) := by
  have hi : Read.idx_main_v33 (ix3 (0 : Fin 1) k p) d = ix4 0 k p d :=
    funext fun a => match a with | ⟨0, _⟩ => rfl | ⟨1, _⟩ => rfl | ⟨2, _⟩ => rfl | ⟨3, _⟩ => rfl
  rw [hi, Read.val_main_v32_apply, Read.val_main_v22_apply, Read.val_main_v20_apply, central4_at, central_at x0 x2 x3 x6 h6,
    w1p_at, wlp_at]
  rfl

end Pair

theorem pair_eq (x0 : SCoef.Idx → EReal) (x1 : SDeriv.Idx → EReal) (x2 x3 x4 : SDesc.Idx → EReal) (x6 : SPair.Idx → BitVec 32)
    (h6 : InRange x6) (k : Fin 3) (p : Fin 500000) :
    Cert.ReferenceIdeal.Read.val_main_v34 (F := Ideal) x0 x1 x2 x3 x4 x6 (ix3 0 k p) = pairForce x0 x1 x2 x3 x4 x6 k p := by
  rw [Read.val_main_v34_apply, Read.val_main_v33_apply, Read.val_main_cst_3_apply]
  simp only [summand_at x0 x1 x2 x3 x4 x6 h6]
  rw [Ideal.ofBits_def, Ideal.ofBits_zero_f32, zero_add]
  rfl

end Cert.ReferenceIdeal.RefPair

end
-- ==== Proof.LibScatterAxis.lean ====
/-
  A scatter-add along the last axis of a three-axis array, read at an index.

  An array `x : [1, K, N]` receives updates `u : [1, K, E]` at a column `idx : [E, 1]` of positions on its last
  axis (`x.at[:, :, idx].add(u)`). Update `(0, k, e)` goes to position `idx e` of line `k`, the position read as a
  signed integer and not clamped; an update whose position is outside `[0, N)` is dropped. So entry `(0, k, a)` of
  the result is `x (0, k, a)` plus the sum of the `u (0, k, e)` over the `e` with `idx e = a`.
-/
import Mathlib.Algebra.BigOperators.Group.Finset.Defs
import Mathlib.Algebra.BigOperators.Group.Finset.Basic
import Mathlib.Data.Fintype.BigOperators
import Idealize.ShloMosaic.PureOps.Ideal
import Idealize.ShloMosaic.Lib.ValueIdx

noncomputable section

open scoped BigOperators

namespace ScatterAxis

open Idealize.ShloMosaic Idealize.ShloMosaic.ValueIdx

/-! ## Sums over a three-axis index set whose first extent is one -/

/-- An index of a `[1, K, E]` array is the pair of its last two coordinates: the first one can only be `0`. -/
def idxEquiv {K E : Nat} : (⟨3, ![1, K, E]⟩ : Shape).Idx ≃ Fin K × Fin E where
  toFun i := (i 1, i 2)
  invFun p := ix3 0 p.1 p.2
  left_inv i := by
    funext a
    match a with
    | ⟨0, _⟩ => exact (Fin.eq_zero (i 0)).symm
    | ⟨1, _⟩ => rfl
    | ⟨2, _⟩ => rfl
  right_inv _ := rfl

/-- So a sum over such an index set is the double sum over those two coordinates. -/
theorem sum_idx {M : Type*} [AddCommMonoid M] {K E : Nat} (f : (⟨3, ![1, K, E]⟩ : Shape).Idx → M) :
    ∑ i, f i = ∑ k : Fin K, ∑ e : Fin E, f (ix3 0 k e) := by
  rw [← Equiv.sum_comp (idxEquiv (K := K) (E := E)).symm f, Fintype.sum_prod_type]
  rfl

/-! ## The scatter-add along the last axis -/

/-- The dimension numbers of `x.at[:, :, idx].add(u)`: operand `[1, K, N]`, positions `[E, 1]`, updates `[1, K, E]`.
    The first two axes of an update are its window, the operand's last axis is the one a position names. -/
abbrev scatterDims (K N E : Nat)
    (wf : ScatterDims.WF ⟨3, ![1, K, N]⟩ ⟨2, ![E, 1]⟩ ⟨3, ![1, K, E]⟩ [0, 1] [2] [2] 1) :
    ScatterDims ⟨3, ![1, K, N]⟩ ⟨2, ![E, 1]⟩ ⟨3, ![1, K, E]⟩ :=
  { updateWindowDims := [0, 1], insertedWindowDims := [2], scatterDimsToOperandDims := [2], indexVectorDim := 1, wf := wf }

section Coordinates
variable {K N E w : Nat} (wf : ScatterDims.WF ⟨3, ![1, K, N]⟩ ⟨2, ![E, 1]⟩ ⟨3, ![1, K, E]⟩ [0, 1] [2] [2] 1)
  (idx : IVec ⟨2, ![E, 1]⟩ w) (z : Fin 1) (k : Fin K) (e : Fin E)

/-- On the last axis update `(z, k, e)` starts at the position `idx e`, read signed and not clamped … -/
theorem start_last : (scatterDims K N E wf).start (ix3 z k e) idx 2 = (idx (ix2 e 0)).toInt := by
  unfold ScatterDims.start
  rw [dif_pos (show (2 : Fin 3) ∈ (scatterDims K N E wf).scatterDimsToOperandDims from List.mem_singleton.mpr rfl)]
  have hsi : (scatterDims K N E wf).siIdx (ix3 z k e)
      ⟨List.idxOf (2 : Fin 3) (scatterDims K N E wf).scatterDimsToOperandDims,
        List.idxOf_lt_length_iff.2 (List.mem_singleton.mpr rfl)⟩ = ix2 e 0 := by
    funext b
    refine Fin.ext ?_
    match b with
    | ⟨0, _⟩ => rfl
    | ⟨1, _⟩ => rfl
  rw [hsi]
/-- … and at `0` on the first … -/
theorem start_first : (scatterDims K N E wf).start (ix3 z k e) idx 0 = 0 := by
  unfold ScatterDims.start
  rw [dif_neg (show (0 : Fin 3) ∉ (scatterDims K N E wf).scatterDimsToOperandDims from by
    show (0 : Fin 3) ∉ [(2 : Fin 3)]; decide)]
/-- … and on the middle axis. -/
theorem start_mid : (scatterDims K N E wf).start (ix3 z k e) idx 1 = 0 := by
  unfold ScatterDims.start
  rw [dif_neg (show (1 : Fin 3) ∉ (scatterDims K N E wf).scatterDimsToOperandDims from by
    show (1 : Fin 3) ∉ [(2 : Fin 3)]; decide)]
/-- Its window coordinate is its own first coordinate on the first axis … -/
theorem window_first : (scatterDims K N E wf).window (ix3 z k e) 0 = z.val := by
  unfold ScatterDims.window
  rw [dif_pos (show (0 : Fin 3) ∈ (scatterDims K N E wf).sKept from by
    show (0 : Fin 3) ∈ (List.finRange 3).filter (fun a => a ∉ [(2 : Fin 3)]); decide)]
  rfl
/-- … its line `k` on the middle axis … -/
theorem window_mid : (scatterDims K N E wf).window (ix3 z k e) 1 = k.val := by
  unfold ScatterDims.window
  rw [dif_pos (show (1 : Fin 3) ∈ (scatterDims K N E wf).sKept from by
    show (1 : Fin 3) ∈ (List.finRange 3).filter (fun a => a ∉ [(2 : Fin 3)]); decide)]
  rfl
/-- … and `0` on the last axis, which the window does not span. -/
theorem window_last : (scatterDims K N E wf).window (ix3 z k e) 2 = 0 := by
  unfold ScatterDims.window
  rw [dif_neg (show (2 : Fin 3) ∉ (scatterDims K N E wf).sKept from by
    show (2 : Fin 3) ∉ (List.finRange 3).filter (fun a => a ∉ [(2 : Fin 3)]); decide)]

/-- Update `(z, k, e)` lands on `(0, k', a)` exactly when its position, read signed, is `a` and its line is `k'`. -/
theorem resultIdx?_eq_some_iff (k' : Fin K) (a : Fin N) :
    (scatterDims K N E wf).resultIdx? (ix3 z k e) idx = some (ix3 0 k' a)
      ↔ (idx (ix2 e 0)).toInt = (a.val : Int) ∧ k = k' := by
  unfold ScatterDims.resultIdx?
  have ha := a.isLt
  have hk := k.isLt
  have hz : z.val = 0 := by have := z.isLt; omega
  split
  · rename_i h
    rw [Option.some.injEq]
    constructor
    · intro hf
      have h1 := congrArg (fun f : (⟨3, ![1, K, N]⟩ : Shape).Idx => (f 1).val) hf
      have h2 := congrArg (fun f : (⟨3, ![1, K, N]⟩ : Shape).Idx => (f 2).val) hf
      simp only [start_mid, start_last, window_mid, window_last] at h1 h2
      have hh := (h 2).1
      simp only [start_last, window_last] at hh
      refine ⟨?_, Fin.ext ?_⟩
      · have : ((idx (ix2 e 0)).toInt + ((0 : Nat) : Int)).toNat = a.val := h2
        omega
      · have : ((0 : Int) + ((k.val : Nat) : Int)).toNat = k'.val := h1
        omega
    · rintro ⟨hs, rfl⟩
      funext b
      refine Fin.ext ?_
      match b with
      | ⟨0, _⟩ =>
        show ((scatterDims K N E wf).start (ix3 z k e) idx 0 + ((scatterDims K N E wf).window (ix3 z k e) 0 : Nat)).toNat = 0
        rw [start_first, window_first, hz]; omega
      | ⟨1, _⟩ =>
        show ((scatterDims K N E wf).start (ix3 z k e) idx 1 + ((scatterDims K N E wf).window (ix3 z k e) 1 : Nat)).toNat = k.val
        rw [start_mid, window_mid]; omega
      | ⟨2, _⟩ =>
        show ((scatterDims K N E wf).start (ix3 z k e) idx 2 + ((scatterDims K N E wf).window (ix3 z k e) 2 : Nat)).toNat = a.val
        rw [start_last, window_last, hs]; omega
  · rename_i h
    constructor
    · intro hf; exact absurd hf (by simp)
    · rintro ⟨hs, rfl⟩
      refine absurd (fun b => ?_) h
      match b with
      | ⟨0, _⟩ =>
        show 0 ≤ (scatterDims K N E wf).start (ix3 z k e) idx 0 + ((scatterDims K N E wf).window (ix3 z k e) 0 : Nat)
          ∧ (scatterDims K N E wf).start (ix3 z k e) idx 0 + ((scatterDims K N E wf).window (ix3 z k e) 0 : Nat) < ((1 : Nat) : Int)
        rw [start_first, window_first, hz]; omega
      | ⟨1, _⟩ =>
        show 0 ≤ (scatterDims K N E wf).start (ix3 z k e) idx 1 + ((scatterDims K N E wf).window (ix3 z k e) 1 : Nat)
          ∧ (scatterDims K N E wf).start (ix3 z k e) idx 1 + ((scatterDims K N E wf).window (ix3 z k e) 1 : Nat) < (K : Int)
        rw [start_mid, window_mid]; omega
      | ⟨2, _⟩ =>
        show 0 ≤ (scatterDims K N E wf).start (ix3 z k e) idx 2 + ((scatterDims K N E wf).window (ix3 z k e) 2 : Nat)
          ∧ (scatterDims K N E wf).start (ix3 z k e) idx 2 + ((scatterDims K N E wf).window (ix3 z k e) 2 : Nat) < (N : Int)
        rw [start_last, window_last, hs]; omega

end Coordinates

/-- Entry `(0, k, a)` of the scatter-add over the extended reals: the operand's entry plus the updates of line `k` whose
    position is `a`. -/
theorem scatterAdd_apply {K N E w : Nat} {φ : FTy}
    (wf : ScatterDims.WF ⟨3, ![1, K, N]⟩ ⟨2, ![E, 1]⟩ ⟨3, ![1, K, E]⟩ [0, 1] [2] [2] 1)
    (x : FVec Ideal ⟨3, ![1, K, N]⟩ φ) (idx : IVec ⟨2, ![E, 1]⟩ w) (upd : FVec Ideal ⟨3, ![1, K, E]⟩ φ)
    (k : Fin K) (a : Fin N) :
    Host.scatterAdd (F := Ideal) (scatterDims K N E wf) x idx upd (ix3 0 k a)
      = x (ix3 0 k a) + ∑ e : Fin E, if (idx (ix2 e 0)).toInt = (a.val : Int) then upd (ix3 0 k e) else 0 := by
  unfold Host.scatterAdd
  rw [Ideal.hostScatterAdd_def]
  unfold Ideal.hostScatterAdd
  congr 1
  rw [Finset.sum_filter, sum_idx]
  simp only [resultIdx?_eq_some_iff]
  rw [Finset.sum_eq_single k]
  · refine Finset.sum_congr rfl fun e _ => ?_
    by_cases hs : (idx (ix2 e 0)).toInt = (a.val : Int)
    · simp [hs]
    · simp [hs]
  · intro k' _ hk
    refine Finset.sum_eq_zero fun e _ => ?_
    exact if_neg fun h => hk h.2
  · intro h
    exact absurd (Finset.mem_univ k) h

end ScatterAxis

end
-- ==== Proof.RefValue.lean ====
/-
  The reference program's force array is the specification's force.

  The program's last operation starts from a zero array `[1, 3, 10000]` and adds to it, along the atom axis, the
  array of pair forces `[1, 3, 500000]` at the neighbour atoms. The neighbour index it uses is the argument's entry
  with 10000 added where the entry is negative; on indices that name an atom this is the entry itself, so entry
  `(0, k, a)` of the result is the sum of the pair forces along `k` of the pairs whose neighbour is `a`.
-/
import proofs.«426470_j1975684956437_3_alg».proof.Proof.Gen.ReferenceIdeal.Read
import proofs.«426470_j1975684956437_3_alg».proof.Proof.Spec
import proofs.«426470_j1975684956437_3_alg».proof.Proof.LibScatterAxis

noncomputable section

open scoped BigOperators

namespace Cert.ReferenceIdeal.RefValue

open Cert.ReferenceIdeal Cert.ReferenceIdeal.Gen PairForces Idealize.ShloMosaic Idealize.ShloMosaic.ValueIdx

/-- A word whose signed value is not negative is not below the zero word in the signed order. -/
theorem slt_zero_of_nonneg {b : BitVec 32} (h : 0 ≤ b.toInt) : IntOp.cmpi .slt b 0#32 = 0#1 := by
  have hs : b.slt 0#32 = false := by
    unfold BitVec.slt
    rw [BitVec.toInt_zero]
    exact decide_eq_false (by omega)
  show BitVec.ofBool (b.slt 0#32) = 0#1
  rw [hs]
  rfl

/-- The index the scatter reads for pair `p`: the argument's entry `p`, when every entry names an atom (the program
    adds 10000 only to a negative entry). -/
theorem index_apply (x7 : SPair.Idx → BitVec 32) (h7 : InRange x7) (p : Fin 500000) :
    Cert.ReferenceIdeal.Read.val_main_v41 (F := Ideal) x7 (ix2 p 0) = x7 (ix1 p) := by
  rw [Read.val_main_v41_apply]
  have hi : Read.idx_main_v41 (ix2 p (0 : Fin 1)) = ix1 p := by
    funext a
    match a with
    | ⟨0, _⟩ => rfl
  rw [hi, Read.val_main_v40_apply, Read.val_main_v37_apply, Read.val_main_v36_apply, Read.val_main_c_5_apply,
    slt_zero_of_nonneg (h7 p).1, select_zero]

/-- Given each entry of the update array as the pair force, the program's last array is the force on every atom. -/
theorem force_eq_of_pair (x0 : SCoef.Idx → EReal) (x1 : SDeriv.Idx → EReal) (x2 x3 x4 : SDesc.Idx → EReal)
    (x6 x7 : SPair.Idx → BitVec 32) (h7 : InRange x7)
    (hpair : ∀ (k : Fin 3) (p : Fin 500000),
      Cert.ReferenceIdeal.Read.val_main_v34 (F := Ideal) x0 x1 x2 x3 x4 x6 (ix3 0 k p) = pairForce x0 x1 x2 x3 x4 x6 k p) :
    Cert.ReferenceIdeal.Read.val_main_v42 (F := Ideal) x0 x1 x2 x3 x4 x6 x7 = force x0 x1 x2 x3 x4 x6 x7 := by
  funext j
  obtain ⟨k, a, rfl⟩ : ∃ (k : Fin 3) (a : Fin 10000), j = ix3 0 k a :=
    ⟨j 1, j 2, by
      funext b
      match b with
      | ⟨0, _⟩ => exact Fin.eq_zero (j 0)
      | ⟨1, _⟩ => rfl
      | ⟨2, _⟩ => rfl⟩
  unfold Read.val_main_v42
  refine (ScatterAxis.scatterAdd_apply scatter_S1x3x10000_S500000x1_S1x3x500000_01_2_2_1_wf
    (Read.val_main_v35 (F := Ideal)) (Read.val_main_v41 (F := Ideal) x7)
    (Read.val_main_v34 (F := Ideal) x0 x1 x2 x3 x4 x6) k a).trans ?_
  rw [Read.val_main_v35_apply, Read.val_main_cst_4_apply]
  show Ideal.ofBits .f32 0x00000000#32 + _ = _
  rw [Ideal.ofBits_zero_f32, zero_add]
  unfold force
  refine Finset.sum_congr rfl fun p _ => ?_
  rw [index_apply x7 h7 p, hpair k p]

end Cert.ReferenceIdeal.RefValue

end
-- ==== Proof.KRegion0.lean ====
/-
  The first of the two grid computations, on its one grid point, where every block is its whole array.

  Write `x n d` for descriptor `d` of atom `n` (10000 atoms, 64 descriptors), `w1`, `b1`, `wl` for the three vectors of
  length 64. The body forms the activations `a n d = tanh (x n d · w1 d + b1 d)` and leaves
    • in its first result, at `(n, d)`, the slope `1 - a n d · a n d`;
    • in the one entry of its second result, the sum over all atoms and all descriptors of `a n d · wl d`, taken
      first over the descriptors of each atom and then over the atoms.
  Both are read here entry by entry, and then carried from the body's buffers to the two result arrays: the grid has a
  single point, that point writes both buffers back, and each buffer is written over the whole of its array.
-/
import proofs.«426470_j1975684956437_3_alg».proof.Proof.Gen.KernelIdeal.Frame
import proofs.«426470_j1975684956437_3_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.KRegion0
open Cert.KernelIdeal Cert.KernelIdeal.Gen PairForces Idealize.ShloMosaic Idealize.ShloMosaic.TcCoe Idealize.ShloMosaic.ValueIdx Idealize.SL.Sem

variable (m : (ℓ : Loc nD τ sig) → Buf (Elt Ideal) ℓ) (ρ : Dev nD → PrngReg)

/-! ## The body's arithmetic, entry by entry -/

/-- The hyperbolic tangent of a vector, at an index, is the hyperbolic tangent of the entry there. -/
private theorem tanh_apply {s : Shape} {φ : FTy} (a : FVec Ideal s φ) (i : s.Idx) : tanh a i = Ideal.tanh (a i) := rfl

/-- The activation at atom `n` and descriptor `d`: the weight and bias vectors are laid along the descriptor axis and
    repeated over the atoms, so at `(n, d)` they are read at `d`. -/
private theorem pay1_apply (x0 : Vec Ideal S10000x64 .f32) (w b : Vec Ideal S64 .f32) (n : Fin 10000) (d : Fin 64) :
    k0_pay1 x0 w b (ix2 n d) = Ideal.tanh (x0 (ix2 n d) * w (ix1 d) + b (ix1 d)) := by
  unfold k0_pay1
  rw [tanh_apply, addf_apply, mulf_apply, shapeCast_self, broadcastTo_1b_ab_apply, broadcastTo_1b_ab_apply,
    shapeCast_a_1a_apply, shapeCast_a_1a_apply]

/-- The slope at `(n, d)`: one minus the square of the activation. -/
private theorem pay2_apply (x0 : Vec Ideal S10000x64 .f32) (w b : Vec Ideal S64 .f32) (n : Fin 10000) (d : Fin 64) :
    k0_pay2 x0 w b (ix2 n d)
      = Ideal.ofBits .f32 0x3F800000#32
          - Ideal.tanh (x0 (ix2 n d) * w (ix1 d) + b (ix1 d)) * Ideal.tanh (x0 (ix2 n d) * w (ix1 d) + b (ix1 d)) := by
  unfold k0_pay2
  rw [subf_apply, mulf_apply, broadcast_apply, pay1_apply]
  rfl

/-- A vector of length `a` seen as a column `[a, 1]` reads, at `(i, u)`, the vector at `i`: both have row-major
    position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a `[10000, 64]` vector along its descriptor axis, at atom `n`, is `∑ d, v (n, d)`: the index over `n` with
    `d` put back on axis 1 is `(n, d)`. -/
private theorem sum_lanes (v : FVec Ideal S10000x64 .f32) (h : S10000x64.Reduces [1] S10000) (hφ : FKind.Formats .f32)
    (hacc : (0x00000000#32 : BitVec 32) = 0x00000000#32) (n : Fin 10000) :
    multiReduction (F := Ideal) .add [1] S10000 v 0x00000000#32 h hφ hacc (ix1 n) = ∑ d : Fin 64, v (ix2 n d) := by
  refine (Ideal.multiReduction_add_single v 0x00000000#32 h hφ hacc (ix1 n)).trans ?_
  show ∑ d : Fin 64, v (h.lift (ix1 n) d) = _
  refine Finset.sum_congr rfl fun d _ => congrArg v ?_
  funext a
  apply Fin.ext
  match a with
  | ⟨0, _⟩ => rfl
  | ⟨1, _⟩ => rfl

/-- The sum of a `[10000, 1]` column along its atom axis is `∑ n, v (n, u)`: the index over `u` with `n` put back on
    axis 0 is `(n, u)`. -/
private theorem sum_atoms (v : FVec Ideal S10000x1 .f32) (h : S10000x1.Reduces [0] S1) (hφ : FKind.Formats .f32)
    (hacc : (0x00000000#32 : BitVec 32) = 0x00000000#32) (u : Fin 1) :
    multiReduction (F := Ideal) .add [0] S1 v 0x00000000#32 h hφ hacc (ix1 u) = ∑ n : Fin 10000, v (ix2 n u) := by
  refine (Ideal.multiReduction_add_single v 0x00000000#32 h hφ hacc (ix1 u)).trans ?_
  show ∑ n : Fin 10000, v (h.lift (ix1 u) n) = _
  refine Finset.sum_congr rfl fun n _ => congrArg v ?_
  funext a
  apply Fin.ext
  match a with
  | ⟨0, _⟩ => rfl
  | ⟨1, _⟩ => rfl

/-- The one entry of the second result: the activations weighted by `wl`, summed over the descriptors of each atom and
    then over the atoms. -/
private theorem pay3_apply (x0 : Vec Ideal S10000x64 .f32) (w b wl : Vec Ideal S64 .f32) (u u' : Fin 1) :
    k0_pay3 x0 w b wl (ix2 u u')
      = ∑ n : Fin 10000, ∑ d : Fin 64, Ideal.tanh (x0 (ix2 n d) * w (ix1 d) + b (ix1 d)) * wl (ix1 d) := by
  unfold k0_pay3
  refine (shapeCast_a_1a_apply _ _ u u').trans ?_
  refine (sum_atoms _ _ _ _ u').trans ?_
  refine Finset.sum_congr rfl fun n _ => ?_
  refine (shapeCast_a_a1_apply _ _ n u').trans ?_
  refine (sum_lanes _ _ _ _ n).trans ?_
  refine Finset.sum_congr rfl fun d _ => ?_
  rw [mulf_apply, pay1_apply, broadcastTo_1b_ab_apply, shapeCast_a_1a_apply]

/-! ## What the body leaves in its two result buffers

Each result buffer takes ONE store, over the whole buffer at offsets zero, and every operand is loaded whole at offsets
zero: the buffer ends holding the stored value, computed from the operands' contents. -/

private theorem hz2 : (![0, 0] : Fin 2 → Nat) = fun _ => 0 := funext fun a => by fin_cases a <;> rfl
private theorem hz1 : (![0] : Fin 1 → Nat) = fun _ => 0 := funext fun a => by fin_cases a; rfl

private theorem out4_eq (x0 : Vec Ideal S10000x64 .f32) (x1 x2 x3 : Vec Ideal S64 .f32) :
    out0_4 x0 x1 x2 x3 = k0_pay2 x0 x1 x2 := by
  unfold out0_4
  rw [View.canon_unit_zero hz2]
  rw [View.ld_unit_zero (S := S10000x64) hz2, View.ld_unit_zero (S := S64) hz1, View.ld_unit_zero (S := S64) hz1]

private theorem out5_eq (x0 : Vec Ideal S10000x64 .f32) (x1 x2 x3 : Vec Ideal S64 .f32) :
    out0_5 x0 x1 x2 x3 = k0_pay3 x0 x1 x2 x3 := by
  unfold out0_5
  rw [View.canon_unit_zero hz2]
  rw [View.ld_unit_zero (S := S10000x64) hz2, View.ld_unit_zero (S := S64) hz1, View.ld_unit_zero (S := S64) hz1,
    View.ld_unit_zero (S := S64) hz1]

/-! ## The operands: each block is its whole array

At the grid's one point every block index is zero on every axis and the block has the array's own extents, so a block
read off its array is the array. -/

private theorem blk0 (c : Dev nD) (t : Fin cfg0.N) :
    (iblk0 (V1 m ρ) c 0 t : Vec Ideal S10000x64 .f32) = V1 m ρ c main_v0 := by
  obtain rfl := fin_N0 t
  have hz' : (fun a => win0_0.index t0_0 a * main_v0.ty.shape.size a) = fun _ => 0 :=
    funext fun a => by fin_cases a <;> decide
  exact Memref.read_access_unit_zero (Elt Ideal) main_v0 hz' (fun a => by rw [congrFun hz' a]; simp) _

private theorem blk1 (c : Dev nD) (t : Fin cfg0.N) :
    (iblk0 (V1 m ρ) c 1 t : Vec Ideal S64 .f32) = V1 m ρ c main_arg2 := by
  obtain rfl := fin_N0 t
  have hz' : (fun a => win0_1.index t0_0 a * main_arg2.ty.shape.size a) = fun _ => 0 :=
    funext fun a => by fin_cases a; decide
  exact Memref.read_access_unit_zero (Elt Ideal) main_arg2 hz' (fun a => by rw [congrFun hz' a]; simp) _

private theorem blk2 (c : Dev nD) (t : Fin cfg0.N) :
    (iblk0 (V1 m ρ) c 2 t : Vec Ideal S64 .f32) = V1 m ρ c main_arg3 := by
  obtain rfl := fin_N0 t
  have hz' : (fun a => win0_2.index t0_0 a * main_arg3.ty.shape.size a) = fun _ => 0 :=
    funext fun a => by fin_cases a; decide
  exact Memref.read_access_unit_zero (Elt Ideal) main_arg3 hz' (fun a => by rw [congrFun hz' a]; simp) _

private theorem blk3 (c : Dev nD) (t : Fin cfg0.N) :
    (iblk0 (V1 m ρ) c 3 t : Vec Ideal S64 .f32) = V1 m ρ c main_arg4 := by
  obtain rfl := fin_N0 t
  have hz' : (fun a => win0_3.index t0_0 a * main_arg4.ty.shape.size a) = fun _ => 0 :=
    funext fun a => by fin_cases a; decide
  exact Memref.read_access_unit_zero (Elt Ideal) main_arg4 hz' (fun a => by rw [congrFun hz' a]; simp) _

/-- When the computation is entered its first operand is the descriptors with their leading unit axis dropped
    (`[1, 10000, 64]` seen as `[10000, 64]`), -/
private theorem V1_v0 (c : Dev nD) : (V1 m ρ c main_v0 : S10000x64.Idx → EReal)
    = shapeCast S10000x64 (m ((c : Thread nD τ).loc main_arg0)) shapeCasts_S1x10000x64_S10000x64 := by
  dsimp only [V1, W1, hostOps0]; after_results
  rfl

/-- and the three vectors are as they were at the start: the two reshapes before it write neither. -/
private theorem V1_arg2 (c : Dev nD) : V1 m ρ c main_arg2 = m ((c : Thread nD τ).loc main_arg2) := by
  dsimp only [V1, W1, hostOps0]; after_results

private theorem V1_arg3 (c : Dev nD) : V1 m ρ c main_arg3 = m ((c : Thread nD τ).loc main_arg3) := by
  dsimp only [V1, W1, hostOps0]; after_results

private theorem V1_arg4 (c : Dev nD) : V1 m ρ c main_arg4 = m ((c : Thread nD τ).loc main_arg4) := by
  dsimp only [V1, W1, hostOps0]; after_results

/-- The weighted activations of the reshaped descriptors, summed, are the specification's total: entry `(n, d)` of the
    reshaped array is entry `(0, n, d)` of the descriptors. -/
private theorem total_of_cast (x : S1x10000x64.Idx → EReal) (h : S1x10000x64.ShapeCasts S10000x64)
    (w b wl : S64.Idx → EReal) :
    (∑ n : Fin 10000, ∑ d : Fin 64, Ideal.tanh (shapeCast S10000x64 x h (ix2 n d) * w (ix1 d) + b (ix1 d)) * wl (ix1 d))
      = total x w b wl := by
  show _ = ∑ n : Fin 10000, ∑ d : Fin 64, act x w b n d * wl (ix1 d)
  refine Finset.sum_congr rfl fun n _ => Finset.sum_congr rfl fun d _ => ?_
  rw [shapeCast_1ab_ab_apply]
  rfl

/-! ## The first result array: the slopes -/

/-- The slopes, as contents of the first result array. -/
private def slopeArr (c : Dev nD) : Buf (Elt Ideal) ((c : Thread nD τ).loc main_v2_0) :=
  fun j => slope (m ((c : Thread nD τ).loc main_arg0)) (m ((c : Thread nD τ).loc main_arg2))
    (m ((c : Thread nD τ).loc main_arg3)) (j 0) (j 1)

private theorem hz4 : (fun a => win0_4.index t0_0 a * main_v2_0.ty.shape.size a) = fun _ => 0 :=
  funext fun a => by fin_cases a <;> decide

/-- What the one point writes back to the first result array is the slopes, read through the point's block (the
    whole array). -/
private theorem flushed4 (c : Dev nD) (t : Fin cfg0.N) (hf : (cfg0.win 4).flush t = true) :
    (dat0 (V1 m ρ) c).flushed 4 t = ((cfg0.win 4).blk t).view.read (Elt Ideal) (slopeArr m c) := by
  obtain rfl := fin_N0 t
  show (cfg0.win 4).cut (grid0.coords t0_0) ((dat0 (V1 m ρ) c).after 4 t0_0) = _
  rw [after0_4, out4_eq, blk0, blk1, blk2, V1_v0, V1_arg2, V1_arg3]
  refine Eq.trans ?_
    (Memref.read_access_unit_zero (Elt Ideal) main_v2_0 hz4 (fun a => by rw [congrFun hz4 a]; simp) (slopeArr m c)).symm
  funext j
  obtain ⟨n, d, rfl⟩ : ∃ (n : Fin 10000) (d : Fin 64), j = ix2 n d := ⟨j 0, j 1, eq_ix2 j⟩
  refine (pay2_apply _ _ _ n d).trans ?_
  rw [shapeCast_1ab_ab_apply]
  rfl

/-- The one point's block covers the first result array. -/
private theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨t0_0, flush0_4 t0_0, ?_⟩
  show i ∈ ((View.whole main_v2_0).slice (win0_4.rect t0_0)).set
  rw [View.set_slice_whole]
  exact View.mem_set_unit_zero (S := S10000x64) hz4 _ i

/-- When the first grid computation ends, its first result array holds the slope of every activation. -/
theorem slopes (c : Dev nD) :
    (W2 m ρ c (Proc.devRef .tc main_v2_0) : S10000x64.Idx → EReal)
      = fun j => slope (m ((c : Thread nD τ).loc main_arg0)) (m ((c : Thread nD τ).loc main_arg2)) (m ((c : Thread nD τ).loc main_arg3)) (j 0) (j 1) :=
  (W2_arr m ρ c 4).trans ((dat0 (V1 m ρ) c).arrAt_eq_of_cover 4 (slopeArr m c) (flushed4 m ρ c) (cover4 c))

/-! ## The second result array: the total -/

/-- The total, as the one entry of the second result array. -/
private def totalArr (c : Dev nD) : Buf (Elt Ideal) ((c : Thread nD τ).loc main_v2_1) :=
  fun _ => total (m ((c : Thread nD τ).loc main_arg0)) (m ((c : Thread nD τ).loc main_arg2))
    (m ((c : Thread nD τ).loc main_arg3)) (m ((c : Thread nD τ).loc main_arg4))

private theorem hz5 : (fun a => win0_5.index t0_0 a * main_v2_1.ty.shape.size a) = fun _ => 0 :=
  funext fun a => by fin_cases a <;> decide

/-- What the one point writes back to the second result array is the total, read through the point's block (the
    whole array). -/
private theorem flushed5 (c : Dev nD) (t : Fin cfg0.N) (hf : (cfg0.win 5).flush t = true) :
    (dat0 (V1 m ρ) c).flushed 5 t = ((cfg0.win 5).blk t).view.read (Elt Ideal) (totalArr m c) := by
  obtain rfl := fin_N0 t
  show (cfg0.win 5).cut (grid0.coords t0_0) ((dat0 (V1 m ρ) c).after 5 t0_0) = _
  rw [after0_5, out5_eq, blk0, blk1, blk2, blk3, V1_v0, V1_arg2, V1_arg3, V1_arg4]
  refine Eq.trans ?_
    (Memref.read_access_unit_zero (Elt Ideal) main_v2_1 hz5 (fun a => by rw [congrFun hz5 a]; simp) (totalArr m c)).symm
  funext j
  obtain ⟨u, u', rfl⟩ : ∃ (u u' : Fin 1), j = ix2 u u' := ⟨j 0, j 1, eq_ix2 j⟩
  refine (pay3_apply _ _ _ _ u u').trans ?_
  exact total_of_cast _ _ _ _ _

/-- The one point's block covers the second result array. -/
private theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  refine ⟨t0_0, flush0_5 t0_0, ?_⟩
  show i ∈ ((View.whole main_v2_1).slice (win0_5.rect t0_0)).set
  rw [View.set_slice_whole]
  exact View.mem_set_unit_zero (S := S1x1) hz5 _ i

/-- When the first grid computation ends, the one entry of its second result array is the total of the weighted
    activations. -/
theorem totals (c : Dev nD) :
    (W2 m ρ c (Proc.devRef .tc main_v2_1) : S1x1.Idx → EReal)
      = fun _ => total (m ((c : Thread nD τ).loc main_arg0)) (m ((c : Thread nD τ).loc main_arg2)) (m ((c : Thread nD τ).loc main_arg3)) (m ((c : Thread nD τ).loc main_arg4)) :=
  (W2_arr m ρ c 5).trans ((dat0 (V1 m ρ) c).arrAt_eq_of_cover 5 (totalArr m c) (flushed5 m ρ c) (cover5 c))

end Cert.KernelIdeal.KRegion0

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.KHost.lean ====
/-
  The host operations of the kernel program around its two calls, read over the extended reals.

  Before the first call the program drops the leading unit axis of the descriptors and of their derivatives. Between the
  calls it forms the energy from the first call's one-by-one total `E`: `E / 10000 + bl`; it gathers, for every pair `p`,
  row `ci p` of the first call's slope table `S : [10000, 64]` (an index reading negative is raised by 10000 first, and a
  row whose index then still lies outside `[0, 9999]` is filled with a not-a-number value: where every index names an atom
  neither happens, and row `p` of the result is row `ci p` of `S`); it views the neighbour indices as a one-column matrix;
  and it multiplies the two weight vectors elementwise. After the second call it only sums the two partial force tables,
  which leaves the energy as it was.

  Each stretch of host operations writes its own intermediate values only, so any other buffer is carried across it
  unchanged (`keep0` … `keep2`); across a call every buffer that is not one of the call's arrays is unchanged. The four
  arrays the second call reads, and the energy, are then each one stretch's operations applied to launch contents or to the
  first call's results, and are read at an index.
-/
import proofs.«426470_j1975684956437_3_alg».proof.Proof.Gen.KernelIdeal.Frame
import proofs.«426470_j1975684956437_3_alg».proof.Proof.Spec
import proofs.«426470_j1975684956437_3_alg».proof.Proof.LibRowOps
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.KHost
open Cert.KernelIdeal Cert.KernelIdeal.Gen PairForces Idealize.ShloMosaic Idealize.ShloMosaic.TcCoe Idealize.ShloMosaic.ValueIdx Idealize.SL.Sem
variable (m : (ℓ : Loc nD τ sig) → Buf (Elt Ideal) ℓ) (ρ : Dev nD → PrngReg)

/-! ## A buffer a stretch of host operations does not write keeps its contents across it -/

/-- The first stretch writes the two reshaped arguments only. -/
theorem keep0 (V : Valuation τ sig (Elt Ideal)) (r : Ref sig .tc) (h : ∀ y ∈ [main_v0, main_v1], r ≠ y) :
    StableHlo.after (hostOps0 (F := Ideal)) V (Proc.devRef .tc r) = V (Proc.devRef .tc r) :=
  StableHlo.after_of_forall_not_mem (b := Proc.devRef .tc r) _ _ (List.forall_iff_forall_mem.mp (by
    simp only [hostOps0, List.Forall, StableHlo.reshape_writes, Finset.mem_singleton]
    repeat' apply And.intro
    all_goals exact StableHlo.devRef_ne_of_ne (h _ (by simp only [List.mem_cons, List.mem_singleton, true_or, or_true]))))

/-- The stretch that forms the energy writes its five intermediate values only. -/
theorem keep1 (V : Valuation τ sig (Elt Ideal)) (r : Ref sig .tc)
    (h : ∀ y ∈ [main_v3, main_cst, main_v4, main_v5, main_v6], r ≠ y) :
    StableHlo.after (hostOps1 (F := Ideal)) V (Proc.devRef .tc r) = V (Proc.devRef .tc r) :=
  StableHlo.after_of_forall_not_mem (b := Proc.devRef .tc r) _ _ (List.forall_iff_forall_mem.mp (by
    simp only [hostOps1, List.Forall, StableHlo.reshape_writes, StableHlo.nullary_writes, StableHlo.unary_writes,
      StableHlo.binary_writes, Finset.mem_singleton]
    repeat' apply And.intro
    all_goals exact StableHlo.devRef_ne_of_ne (h _ (by simp only [List.mem_cons, List.mem_singleton, true_or, or_true]))))

/-- The row gather writes its twenty-three intermediate values only. -/
theorem keep1_1 (V : Valuation τ sig (Elt Ideal)) (r : Ref sig .tc)
    (h : ∀ y ∈ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v7], r ≠ y) :
    StableHlo.after (hostOps1_1 (F := Ideal)) V (Proc.devRef .tc r) = V (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (h _ (by simp only [List.mem_cons, List.mem_singleton, true_or, or_true]))))

/-- The stretch before the second call writes the neighbour column and the product of the two weight vectors only. -/
theorem keep1_2 (V : Valuation τ sig (Elt Ideal)) (r : Ref sig .tc) (h : ∀ y ∈ [main_v8, main_v9], r ≠ y) :
    StableHlo.after (hostOps1_2 (F := Ideal)) V (Proc.devRef .tc r) = V (Proc.devRef .tc r) :=
  StableHlo.after_of_forall_not_mem (b := Proc.devRef .tc r) _ _ (List.forall_iff_forall_mem.mp (by
    simp only [hostOps1_2, List.Forall, StableHlo.reshape_writes, StableHlo.binary_writes, Finset.mem_singleton]
    repeat' apply And.intro
    all_goals exact StableHlo.devRef_ne_of_ne (h _ (by simp only [List.mem_cons, List.mem_singleton, true_or, or_true]))))

/-- The last stretch writes the three values that sum the two partial force tables only. -/
theorem keep2 (V : Valuation τ sig (Elt Ideal)) (r : Ref sig .tc) (h : ∀ y ∈ [main_cst_0, main_v11, main_v12], r ≠ y) :
    StableHlo.after (hostOps2 (F := Ideal)) V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      Finset.mem_singleton]
    repeat' apply And.intro
    all_goals exact StableHlo.devRef_ne_of_ne (h _ (by simp only [List.mem_cons, List.mem_singleton, true_or, or_true]))))

/-! ## What the launch memory holds is what the arguments' buffers hold up to the first call's exit -/

theorem W2_arg2 (c : Dev nD) : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans (keep0 _ main_arg2 (by decide))
theorem W2_arg4 (c : Dev nD) : W2 m ρ c (Proc.devRef .tc main_arg4) = m ((c : Thread nD τ).loc main_arg4) :=
  ((W2_arr m ρ c 3).trans (((dat0 (V1 m ρ) c).arrAt_in 3 rfl _).trans (A_eq0 (V1 m ρ) c 3))).trans (keep0 _ main_arg4 (by decide))
theorem W2_arg5 (c : Dev nD) : W2 m ρ c (Proc.devRef .tc main_arg5) = m ((c : Thread nD τ).loc main_arg5) :=
  (W2_of_ne m ρ c main_arg5 (by decide)).trans (keep0 _ main_arg5 (by decide))
theorem W2_arg6 (c : Dev nD) : W2 m ρ c (Proc.devRef .tc main_arg6) = m ((c : Thread nD τ).loc main_arg6) :=
  (W2_of_ne m ρ c main_arg6 (by decide)).trans (keep0 _ main_arg6 (by decide))
theorem W2_arg7 (c : Dev nD) : W2 m ρ c (Proc.devRef .tc main_arg7) = m ((c : Thread nD τ).loc main_arg7) :=
  (W2_of_ne m ρ c main_arg7 (by decide)).trans (keep0 _ main_arg7 (by decide))

/-! ## The three plain inputs of the second call -/

/-- The neighbour indices, launched as a vector, enter the second call as a one-column matrix. -/
theorem neigh (c : Dev nD) : (V5 m ρ c main_v8 : S500000x1.Idx → BitVec 32) = fun j => m ((c : Thread nD τ).loc main_arg7) (ix1 (j 0)) := by
  have key : ∀ V : Valuation τ sig (Elt Ideal), (StableHlo.after (hostOps1_2 (F := Ideal)) V (Proc.devRef .tc main_v8) : S500000x1.Idx → BitVec 32)
      = shapeCast S500000x1 (V (Proc.devRef .tc main_arg7) : S500000.Idx → BitVec 32) shapeCasts_S500000_S500000x1 := by
    intro V; after_results; rfl
  have h7 : W4 m ρ c (Proc.devRef .tc main_arg7) = m ((c : Thread nD τ).loc main_arg7) :=
    calc W4 m ρ c (Proc.devRef .tc main_arg7)
      _ = W3 m ρ c (Proc.devRef .tc main_arg7) := keep1_1 _ main_arg7 (by decide)
      _ = W2 m ρ c (Proc.devRef .tc main_arg7) := keep1 _ main_arg7 (by decide)
      _ = m ((c : Thread nD τ).loc main_arg7) := W2_arg7 m ρ c
  refine (key (W4 m ρ c)).trans ?_
  rw [h7]
  funext j
  refine (shapeCast_apply (s := S500000) (t := S500000x1) _ _ j (ix1 (j 0)) ?_)
  rw [Shape.rowMajor_val_one, Shape.rowMajor_val_two]
  have : (j 1).val < 1 := (j 1).isLt
  show (j 0).val = (j 0).val * 1 + (j 1).val
  omega

/-- The descriptor derivatives enter the second call with their leading unit axis dropped. -/
theorem deriv (c : Dev nD) : (V5 m ρ c main_v1 : S3x500000x64.Idx → EReal) = fun j => m ((c : Thread nD τ).loc main_arg1) (ix4 0 (j 0) (j 1) (j 2)) := by
  have key : ∀ V : Valuation τ sig (Elt Ideal), (StableHlo.after (hostOps0 (F := Ideal)) V (Proc.devRef .tc main_v1) : S3x500000x64.Idx → EReal)
      = shapeCast S3x500000x64 (V (Proc.devRef .tc main_arg1) : S1x3x500000x64.Idx → EReal) shapeCasts_S1x3x500000x64_S3x500000x64 := by
    intro V; after_results; rfl
  have h1 : W5 m ρ c (Proc.devRef .tc main_v1) = W1 m ρ c (Proc.devRef .tc main_v1) :=
    calc W5 m ρ c (Proc.devRef .tc main_v1)
      _ = W4 m ρ c (Proc.devRef .tc main_v1) := keep1_2 _ main_v1 (by decide)
      _ = W3 m ρ c (Proc.devRef .tc main_v1) := keep1_1 _ main_v1 (by decide)
      _ = W2 m ρ c (Proc.devRef .tc main_v1) := keep1 _ main_v1 (by decide)
      _ = W1 m ρ c (Proc.devRef .tc main_v1) := W2_of_ne m ρ c main_v1 (by decide)
  refine (h1.trans (key (W0 m ρ c))).trans ?_
  funext j
  rw [eq_ix3 j]
  exact shapeCast_1abc_abc_apply (m ((c : Thread nD τ).loc main_arg1)) _ (j 0) (j 1) (j 2)

/-- The two weight vectors enter the second call as their elementwise product. -/
theorem scale (c : Dev nD) : (V5 m ρ c main_v9 : S64.Idx → EReal) = fun j => @HMul.hMul EReal EReal EReal instHMul (m ((c : Thread nD τ).loc main_arg2) j) (m ((c : Thread nD τ).loc main_arg4) j) := by
  have key : ∀ V : Valuation τ sig (Elt Ideal), (StableHlo.after (hostOps1_2 (F := Ideal)) V (Proc.devRef .tc main_v9) : S64.Idx → EReal)
      = mulf (F := Ideal) (s := S64) (φ := .f32) (V (Proc.devRef .tc main_arg2)) (V (Proc.devRef .tc main_arg4)) := by
    intro V; after_results
  have h2 : W4 m ρ c (Proc.devRef .tc main_arg2) = m ((c : Thread nD τ).loc main_arg2) :=
    calc W4 m ρ c (Proc.devRef .tc main_arg2)
      _ = W3 m ρ c (Proc.devRef .tc main_arg2) := keep1_1 _ main_arg2 (by decide)
      _ = W2 m ρ c (Proc.devRef .tc main_arg2) := keep1 _ main_arg2 (by decide)
      _ = m ((c : Thread nD τ).loc main_arg2) := W2_arg2 m ρ c
  have h4 : W4 m ρ c (Proc.devRef .tc main_arg4) = m ((c : Thread nD τ).loc main_arg4) :=
    calc W4 m ρ c (Proc.devRef .tc main_arg4)
      _ = W3 m ρ c (Proc.devRef .tc main_arg4) := keep1_1 _ main_arg4 (by decide)
      _ = W2 m ρ c (Proc.devRef .tc main_arg4) := keep1 _ main_arg4 (by decide)
      _ = m ((c : Thread nD τ).loc main_arg4) := W2_arg4 m ρ c
  refine (key (W4 m ρ c)).trans ?_
  rw [h2, h4]
  rfl

/-! ## The row gather, read at an index -/

/-- A word that reads signed as at least zero is not below zero: the test "less than zero" gives the bit 0. -/
theorem slt_zero_of_nonneg (w : BitVec 32) (h : 0 ≤ w.toInt) : IntOp.cmpi .slt w 0#32 = 0#1 := by
  have h0 : (0#32 : BitVec 32).toInt = 0 := by decide
  have hb : w.slt 0#32 = false := by
    simp only [BitVec.slt, h0, decide_eq_false_iff_not, not_lt]; exact h
  show BitVec.ofBool (w.slt 0#32) = 0#1
  rw [hb]; rfl

/-- A word that reads signed as at least zero passes the test "at least zero": the bit 1. -/
theorem sge_zero_of_nonneg (w : BitVec 32) (h : 0 ≤ w.toInt) : IntOp.cmpi .sge w 0#32 = 1#1 := by
  have h0 : (0#32 : BitVec 32).toInt = 0 := by decide
  have hb : (0#32 : BitVec 32).sle w = true := by
    simp only [BitVec.sle, h0, decide_eq_true_eq]; exact h
  show BitVec.ofBool ((0#32 : BitVec 32).sle w) = 1#1
  rw [hb]; rfl

/-- A word that reads signed below the number of rows, 10000, passes the test "at most the last row, 9999": the bit 1. -/
theorem sle_last_of_lt (w : BitVec 32) (h : w.toInt < 10000) : IntOp.cmpi .sle w 9999#32 = 1#1 := by
  have h9 : (9999#32 : BitVec 32).toInt = 9999 := by decide
  have hb : w.sle 9999#32 = true := by
    simp only [BitVec.sle, h9, decide_eq_true_eq]; omega
  show BitVec.ofBool (w.sle 9999#32) = 1#1
  rw [hb]; rfl

/-- A left fold by `and` from one over words that are all one is one. -/
theorem foldl_andi_one {ι : Type} (f : ι → BitVec 1) (l : List ι) (h : ∀ i, f i = 1#1) :
    l.foldl (fun r i => IntOp.andi r (f i)) 1#1 = 1#1 := by
  induction l with
  | nil => rfl
  | cons a l ih => rw [List.foldl_cons, h a]; exact ih

/-- The start indices the gather reads: each index, raised by the number of rows where it reads negative, as a one-column matrix. -/
def startIdx (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 10000#32))) idx)

/-- Which start indices name a row: at least zero and at most the last row, the two tests joined and folded over the unit axis. -/
def rowOk (s : IVec S500000x1 32) : IVec S500000 1 :=
  Host.reduce IntOp.andi
    (andi (cmpi .sge s (broadcastInDim S500000x1 ![] bcast_S_S500000x1 (constantI S_ 32 0#32)))
      (cmpi .sle s (broadcastInDim S500000x1 ![0, 1] bcast_S1x1_S500000x1_0_1
        (broadcastInDim S1x1 ![1] bcast_S1_S1x1_1 (constantI S1 32 9999#32)))))
    (constantI S_ 1 1#1) reducesTo_S500000x1_S500000_d1 h_S_

/-- The rows of `x` the indices name, a row of fill values where an index names none. -/
def takeRows (x : FVec Ideal S10000x64 .f32) (idx : IVec S500000 32) : FVec Ideal S500000x64 .f32 :=
  select (broadcastInDim S500000x64 ![0] bcast_S500000_S500000x64_0 (rowOk (startIdx idx)))
    (Host.gather gather_S10000x64_S500000x1_S500000x64_1_0_n_n_0_1_164 x (startIdx idx))
    (broadcastInDim S500000x64 ![] bcast_S_S500000x64 (constant (F := Ideal) S_ .f32 0x7FC00000#32))

/-- An index that names an atom is its own start index. -/
theorem startIdx_apply (idx : IVec S500000 32) (j : S500000x1.Idx) (h : 0 ≤ (idx (ix1 (j 0))).toInt) :
    startIdx idx j = idx (ix1 (j 0)) := by
  unfold startIdx
  refine (broadcastInDim_apply (s := S500000) (t := S500000x1) ![0] _ _ j (ix1 (j 0)) fun a => ?_).trans ?_
  · match a with
    | ⟨0, _⟩ =>
      show (j 0).val = if (500000 : ℕ) = 1 then 0 else (j 0).val
      rw [if_neg (by decide)]
  · show Scalar.select (IntOp.cmpi .slt (idx (ix1 (j 0))) 0#32) _ (idx (ix1 (j 0))) = _
    rw [slt_zero_of_nonneg _ h, select_zero]

/-- Where every index names an atom, every start index names a row. -/
theorem rowOk_apply (s : IVec S500000x1 32) (hs : ∀ j, 0 ≤ (s j).toInt ∧ (s j).toInt < 10000) (p : S500000.Idx) :
    rowOk s p = 1#1 := by
  unfold rowOk
  rw [Host.reduce_eq_foldl]
  refine foldl_andi_one _ _ fun j => ?_
  show IntOp.andi (IntOp.cmpi .sge (s j) 0#32) (IntOp.cmpi .sle (s j) 9999#32) = 1#1
  rw [sge_zero_of_nonneg _ (hs j).1, sle_last_of_lt _ (hs j).2]; rfl

/-- Where every index names an atom, the gathered array holds at `(p, d)` the matrix at the row index `p` names, column `d`. -/
theorem takeRows_apply (x : FVec Ideal S10000x64 .f32) (idx : IVec S500000 32) (h : InRange idx) (j : S500000x64.Idx) :
    takeRows x idx j = x (ix2 (atomOf (idx (ix1 (j 0)))) (j 1)) := by
  have hs : ∀ q : S500000x1.Idx, startIdx idx q = idx (ix1 (q 0)) := fun q => startIdx_apply idx q (h (q 0)).1
  have hr : ∀ q : S500000x1.Idx, 0 ≤ (startIdx idx q).toInt ∧ (startIdx idx q).toInt < 10000 := fun q => by
    rw [hs q]; exact h (q 0)
  have hmask : broadcastInDim S500000x64 ![0] bcast_S500000_S500000x64_0 (rowOk (startIdx idx)) j = 1#1 := by
    refine (broadcastInDim_apply (s := S500000) (t := S500000x64) ![0] _ _ j (ix1 (j 0)) fun a => ?_).trans
      (rowOk_apply _ hr _)
    match a with
    | ⟨0, _⟩ =>
      show (j 0).val = if (500000 : ℕ) = 1 then 0 else (j 0).val
      rw [if_neg (by decide)]
  unfold takeRows
  rw [select_apply, hmask, select_one, eq_ix2 j]
  refine (RowOps.gather_apply (N := 10000) (E := 500000) (C := 64) (by decide)
    gather_S10000x64_S500000x1_S500000x64_1_0_n_n_0_1_164_wf x (startIdx idx) (j 0) (j 1)).trans ?_
  rw [hs]
  exact congrArg x (congrArg (fun r => ix2 r (j 1)) (Fin.ext rfl))

/-- What the second call reads as its gathered rows: row `p` is the row of the first call's slope table that the central
    atom of pair `p` names. -/
theorem gathered (c : Dev nD) (S : S10000x64.Idx → EReal) (hS : (W2 m ρ c (Proc.devRef .tc main_v2_0) : S10000x64.Idx → EReal) = S)
    (h6 : InRange (m ((c : Thread nD τ).loc main_arg6))) :
    (V5 m ρ c main_v7 : S500000x64.Idx → EReal) = fun j => S (ix2 (atomOf (m ((c : Thread nD τ).loc main_arg6) (ix1 (j 0)))) (j 1)) := by
  have key : ∀ V : Valuation τ sig (Elt Ideal), (StableHlo.after (hostOps1_1 (F := Ideal)) V (Proc.devRef .tc main_v7) : S500000x64.Idx → EReal)
      = takeRows (V (Proc.devRef .tc main_v2_0)) (V (Proc.devRef .tc main_arg6)) := by
    intro V
    after_results_simp
    simp only [StableHlo.TRef.ofBuf, StableHlo.TRef.toBuf, cast_cast, cast_eq]
    rfl
  have hx : W3 m ρ c (Proc.devRef .tc main_v2_0) = S := (keep1 _ main_v2_0 (by decide)).trans hS
  have hi : W3 m ρ c (Proc.devRef .tc main_arg6) = m ((c : Thread nD τ).loc main_arg6) :=
    (keep1 _ main_arg6 (by decide)).trans (W2_arg6 m ρ c)
  have h7 : W5 m ρ c (Proc.devRef .tc main_v7) = W4 m ρ c (Proc.devRef .tc main_v7) := keep1_2 _ main_v7 (by decide)
  refine (h7.trans (key (W3 m ρ c))).trans ?_
  rw [hx, hi]
  funext j
  exact takeRows_apply S _ h6 j

/-! ## The energy result -/

/-- The energy buffer is written by the stretch after the first call and by nothing later. -/
theorem W3_v6 (c : Dev nD) : W7 m ρ c (Proc.devRef .tc main_v6) = W3 m ρ c (Proc.devRef .tc main_v6) :=
  calc W7 m ρ c (Proc.devRef .tc main_v6)
    _ = W6 m ρ c (Proc.devRef .tc main_v6) := keep2 _ main_v6 (by decide)
    _ = W5 m ρ c (Proc.devRef .tc main_v6) := W6_of_ne m ρ c main_v6 (by decide)
    _ = W4 m ρ c (Proc.devRef .tc main_v6) := keep1_2 _ main_v6 (by decide)
    _ = W3 m ρ c (Proc.devRef .tc main_v6) := keep1_1 _ main_v6 (by decide)

/-- A one-by-one array has one index. -/
theorem idx11_eq (k : S1x1.Idx) : k = ix2 0 0 := by
  funext a
  match a with
  | ⟨0, _⟩ => exact Fin.ext (by have : (k 0).val < 1 := (k 0).isLt; show (k 0).val = 0; omega)
  | ⟨1, _⟩ => exact Fin.ext (by have : (k 1).val < 1 := (k 1).isLt; show (k 1).val = 0; omega)

/-- The energy: the first call's one-by-one total over the number of atoms, plus the bias. -/
theorem energy_out (c : Dev nD) (E : S1x1.Idx → EReal) (hE : (W2 m ρ c (Proc.devRef .tc main_v2_1) : S1x1.Idx → EReal) = E) :
    (W7 m ρ c (Proc.devRef .tc main_v6) : S1.Idx → EReal)
      = fun j => Ideal.div (E (ix2 0 0)) (Ideal.ofBits .f32 0x461C4000#32) + m ((c : Thread nD τ).loc main_arg5) j := by
  have key : ∀ V : Valuation τ sig (Elt Ideal), (StableHlo.after (hostOps1 (F := Ideal)) V (Proc.devRef .tc main_v6) : S1.Idx → EReal)
      = addf (broadcastInDim S1 ![] bcast_S_S1 (Host.divf (F := Ideal)
            (shapeCast S_ (V (Proc.devRef .tc main_v2_1) : S1x1.Idx → EReal) shapeCasts_S1x1_S_) (constant (F := Ideal) S_ .f32 0x461C4000#32)))
          (V (Proc.devRef .tc main_arg5)) := by
    intro V; after_results; rfl
  refine ((W3_v6 m ρ c).trans (key (W2 m ρ c))).trans ?_
  rw [W2_arg5, hE]
  funext j
  show Ideal.div (E (Shape.reshapeEquiv _ _)) (Ideal.ofBits .f32 0x461C4000#32) + m ((c : Thread nD τ).loc main_arg5) j = _
  rw [idx11_eq (Shape.reshapeEquiv _ _)]

end Cert.KernelIdeal.KHost

end
-- ==== Proof.KRegion1.lean ====
/-
  The second pallas_call of the kernel: what its result array holds when it ends.

  The grid has 500 points; point `t` belongs to half `t / 250`. Each half owns one `[1, 3, 10000]` block of the result,
  which stays in place over the half's 250 points: the first point of a half stores the zero block and adds its own
  contribution, every later point adds its contribution to what the point before left, and the block is written back
  after the half's last point. So the half's block ends as the sum of its 250 points' contributions (the additions
  over the extended reals, taken in point order), and the result array is, half by half, that sum.
-/
import proofs.«426470_j1975684956437_3_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators

namespace Cert.KernelIdeal.KRegion1

open Cert.KernelIdeal Cert.KernelIdeal.Gen
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What one point leaves in the result block, for any float values -/

section AnyValues
variable {F : FTy → Type} [FloatOps F]

/-- A later point of a half: the block holding `xo` ends at `xo` plus the point's contribution, computed from the
    point's four input blocks (the one-hot block goes through the scratch buffer and is read back whole). -/
theorem out_B (c : Dev nD) (i : grid1.Coords) (a2 : Memref sig .tc .vmem S1000x1 .i32) (h2 : a2.IsWhole) (a3 : Memref sig .tc .vmem S3x1000x64 .f32) (h3 : a3.IsWhole) (a4 : Memref sig .tc .vmem S1000x64 .f32) (h4 : a4.IsWhole) (a5 : Memref sig .tc .vmem S64 .f32) (h5 : a5.IsWhole) (a6 : Memref sig .tc .vmem S1x3x10000 .f32) (h6 : a6.IsWhole) (a7 : Memref sig .tc .vmem S1000x10000 .bf16) (h7 : a7.IsWhole) (hc : ¬cond1_0 i)
    (x0 : Vec F S1000x1 .i32) (x1 : Vec F S3x1000x64 .f32) (x2 : Vec F S1000x64 .f32) (x3 : Vec F S64 .f32) (xo : Vec F S1x3x10000 .f32) :
    out1_B_4 c i a2 h2 a3 h3 a4 h4 a5 h5 a6 h6 a7 h7 hc x0 x1 x2 x3 xo = k1_pay1 (k1_pay4 xo) (k1_pay5 x2 x1 x3 (k1_pay3 x0)) := by
  unfold out1_B_4
  rw [View.read_writes_eq_canon _ _ _ (cover1_B_4 c i a2 h2 a3 h3 a4 h4 a5 h5 a6 h6 a7 h7 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.readCov_unit_zero (S := S1000x10000) _ hz2,
    View.ld_unit_zero (S := S1x3x10000) hz3, View.ld_unit_zero (S := S1000x64) hz2, View.ld_unit_zero (S := S3x1000x64) hz3,
    View.ld_unit_zero (S := S64) hz1, View.ld_unit_zero (S := S1000x1) hz2]

/-- The first point of a half: the block is set to zero, read back, and ends at zero plus the point's contribution. -/
theorem out_A (c : Dev nD) (i : grid1.Coords) (a2 : Memref sig .tc .vmem S1000x1 .i32) (h2 : a2.IsWhole) (a3 : Memref sig .tc .vmem S3x1000x64 .f32) (h3 : a3.IsWhole) (a4 : Memref sig .tc .vmem S1000x64 .f32) (h4 : a4.IsWhole) (a5 : Memref sig .tc .vmem S64 .f32) (h5 : a5.IsWhole) (a6 : Memref sig .tc .vmem S1x3x10000 .f32) (h6 : a6.IsWhole) (a7 : Memref sig .tc .vmem S1000x10000 .bf16) (h7 : a7.IsWhole) (hc : cond1_0 i)
    (x0 : Vec F S1000x1 .i32) (x1 : Vec F S3x1000x64 .f32) (x2 : Vec F S1000x64 .f32) (x3 : Vec F S64 .f32) :
    out1_A_4 c i a2 h2 a3 h3 a4 h4 a5 h5 a6 h6 a7 h7 hc x0 x1 x2 x3 = k1_pay1 (k1_pay4 (k1_pay2 (F := F))) (k1_pay5 x2 x1 x3 (k1_pay3 x0)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S1x3x10000) hz3]
  simp only [View.readAt_eq_ld, h2.read_unread, h3.read_unread, h4.read_unread, h5.read_unread,
    View.readCov_unit_zero (S := S1000x10000) _ hz2, View.readCov_unit_zero (S := S1x3x10000) _ hz3,
    View.ld_unit_zero (S := S1000x64) hz2, View.ld_unit_zero (S := S3x1000x64) hz3,
    View.ld_unit_zero (S := S64) hz1, View.ld_unit_zero (S := S1000x1) hz2]

end AnyValues

/-! ## Over the extended reals: the block after point `n` is the sum of its half's contributions so far -/

/-- Adding a contribution `v` to a block holding `xo`, entry by entry. -/
theorem acc_step (xo v : FVec Ideal S1x3x10000 .f32) (j : S1x3x10000.Idx) :
    k1_pay1 (F := Ideal) (k1_pay4 (F := Ideal) xo) v j = xo j + v j := by
  unfold k1_pay1 k1_pay4
  rw [shapeCast_self]
  rfl

/-- The zero block is zero at every entry. -/
theorem acc_zero (j : S1x3x10000.Idx) : k1_pay2 (F := Ideal) j = 0 := by
  unfold k1_pay2
  exact Ideal.ofBits_zero_f32

section
variable (V : (c : Dev nD) → (b : Ref sig .tc) → Buf (Elt Ideal) ((c : Thread nD τ).loc b))

/-- The four input blocks of point `t`, at their literal types. -/
abbrev nblk (c : Dev nD) (t : Fin cfg1.N) : Vec Ideal S1000x1 .i32 := iblk1 V c 0 t
abbrev dblk (c : Dev nD) (t : Fin cfg1.N) : Vec Ideal S3x1000x64 .f32 := iblk1 V c 1 t
abbrev gblk (c : Dev nD) (t : Fin cfg1.N) : Vec Ideal S1000x64 .f32 := iblk1 V c 2 t
abbrev sblk (c : Dev nD) (t : Fin cfg1.N) : Vec Ideal S64 .f32 := iblk1 V c 3 t

/-- What point `t` adds to its half's block. -/
def pointVal (c : Dev nD) (t : Fin cfg1.N) : FVec Ideal S1x3x10000 .f32 :=
  k1_pay5 (F := Ideal) (gblk V c t) (dblk V c t) (sblk V c t) (k1_pay3 (F := Ideal) (nblk V c t))

/-- The same by the point's number (zero past the grid). -/
def pointAt (c : Dev nD) (s : ℕ) : FVec Ideal S1x3x10000 .f32 :=
  if hs : s < cfg1.N then pointVal V c ⟨s, hs⟩ else fun _ => 0

theorem pointAt_of_lt (c : Dev nD) (s : ℕ) (hs : s < cfg1.N) : pointAt V c s = pointVal V c ⟨s, hs⟩ := dif_pos hs

/-- After point `n` the block holds the contributions of the points of `n`'s half up to `n`, summed. -/
theorem outsAt_eq (c : Dev nD) : ∀ (n : ℕ) (h : n < cfg1.N) (j : S1x3x10000.Idx),
    outsAt1 V c n h j = ∑ i ∈ Finset.range (n % 250 + 1), pointAt V c (n - n % 250 + i) j
  | 0, h, j => by
    refine (congrFun (outsAt1_A V c ⟨0, h⟩ rfl) j).trans ?_
    refine (congrFun (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) scM1_0 (Memref.isWhole_whole _) ((hcond1_0 ⟨0, h⟩).mpr rfl) (nblk V c ⟨0, h⟩) (dblk V c ⟨0, h⟩) (gblk V c ⟨0, h⟩) (sblk V c ⟨0, h⟩)) j).trans ?_
    rw [acc_step, acc_zero, zero_add]
    show pointVal V c ⟨0, h⟩ j = _
    rw [show (0 : ℕ) % 250 + 1 = 1 from rfl, Finset.sum_range_one, show (0 : ℕ) - 0 % 250 + 0 = 0 from rfl, pointAt_of_lt V c 0 h]
  | n + 1, h, j => by
    by_cases h0 : (n + 1) % 250 = 0
    · refine (congrFun (outsAt1_A V c ⟨n + 1, h⟩ h0) j).trans ?_
      refine (congrFun (out_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) ((hcond1_0 ⟨n + 1, h⟩).mpr h0) (nblk V c ⟨n + 1, h⟩) (dblk V c ⟨n + 1, h⟩) (gblk V c ⟨n + 1, h⟩) (sblk V c ⟨n + 1, h⟩)) j).trans ?_
      rw [acc_step, acc_zero, zero_add]
      show pointVal V c ⟨n + 1, h⟩ j = _
      rw [h0, Nat.zero_add, Finset.sum_range_one]
      show pointVal V c ⟨n + 1, h⟩ j = pointAt V c (n + 1) j
      rw [pointAt_of_lt V c (n + 1) h]
    · refine (congrFun (outsAt1_B V c ⟨n + 1, h⟩ h0) j).trans ?_
      refine (congrFun (out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) (nblk V c ⟨n + 1, h⟩) (dblk V c ⟨n + 1, h⟩) (gblk V c ⟨n + 1, h⟩) (sblk V c ⟨n + 1, h⟩) (outsAt1 V c n (Nat.lt_of_succ_lt h))) j).trans ?_
      rw [acc_step]
      show outsAt1 V c n (Nat.lt_of_succ_lt h) j + pointVal V c ⟨n + 1, h⟩ j = _
      rw [outsAt_eq c n (Nat.lt_of_succ_lt h) j]
      have e1 : (n + 1) % 250 = n % 250 + 1 := by omega
      have e2 : n + 1 - (n + 1) % 250 = n - n % 250 := by omega
      rw [e2, e1, Finset.sum_range_succ (n := n % 250 + 1)]
      have e3 : n - n % 250 + (n % 250 + 1) = n + 1 := by omega
      rw [e3, pointAt_of_lt V c (n + 1) h]

/-! ## The result array -/

/-- The output window's block index at point `t`: its half on the leading axis, zero on the others. -/
theorem out_index : ∀ t : Fin cfg1.N, win1_4.index t (0 : Fin 3) = t.val / 250 ∧ win1_4.index t (1 : Fin 3) = 0
    ∧ win1_4.index t (2 : Fin 3) = 0 :=
  (by decide +kernel : ∀ t : Fin grid1.N, _)

/-- Half `j 0`'s block of the result: the contributions of its 250 points, summed. -/
def halfSum (c : Dev nD) : S2x3x10000.Idx → EReal := fun j =>
  ∑ i ∈ Finset.range 250, pointAt V c (250 * (j 0).val + i) (ix3 0 (j 1) (j 2))

/-- What is written back after a half's last point is that half's block of `halfSum`. -/
theorem flushed_eq (c : Dev nD) (t : Fin cfg1.N) (hf : (cfg1.win 4).flush t = true) :
    (dat1 V c).flushed 4 t = ((cfg1.win 4).blk t).view.read (Elt Ideal) (halfSum V c) := by
  have h249 : t.val % 250 = 249 := (flush1_4 t).mp hf
  have hN : t.val < 500 := lt_of_lt_of_eq t.isLt N_1
  obtain ⟨e0, e1, e2⟩ := out_index t
  show (cfg1.win 4).cut (grid1.coords t) ((dat1 V c).after 4 t) = _
  rw [after1_4]
  funext y
  show outsAt1 V c t.val t.isLt y = halfSum V c (((cfg1.win 4).blk t).view.emb y)
  rw [outsAt_eq V c t.val t.isLt y, h249]
  unfold halfSum
  have hy0 : (y 0).val = 0 := by have : (y 0).val < 1 := (y 0).isLt; omega
  have c0 : ((((cfg1.win 4).blk t).view.emb y) 0).val = t.val / 250 := by
    show win1_4.index t (0 : Fin 3) * 1 + 1 * (y 0).val = _; omega
  have c1 : (((cfg1.win 4).blk t).view.emb y) 1 = y 1 :=
    Fin.ext (by show win1_4.index t (1 : Fin 3) * 3 + 1 * (y 1).val = (y 1).val; omega)
  have c2 : (((cfg1.win 4).blk t).view.emb y) 2 = y 2 :=
    Fin.ext (by show win1_4.index t (2 : Fin 3) * 10000 + 1 * (y 2).val = (y 2).val; omega)
  rw [c0, c1, c2]
  have hy : y = ix3 0 (y 1) (y 2) := by
    funext a
    match a with
    | ⟨0, _⟩ => exact Fin.ext hy0
    | ⟨1, _⟩ => rfl
    | ⟨2, _⟩ => rfl
  have hb : t.val - 249 = 250 * (t.val / 250) := by omega
  rw [hb]
  exact Finset.sum_congr rfl fun i _ => congrArg _ hy

/-- Every entry of the result array is in the block written back after its half's last point. -/
theorem cover (c : Dev nD) (i : S2x3x10000.Idx) :
    ∃ t : Fin cfg1.N, (cfg1.win 4).flush t = true ∧ i ∈ ((cfg1.win 4).blk t).view.set := by
  have hi0 : (i 0).val < 2 := (i 0).isLt
  have hi1 : (i 1).val < 3 := (i 1).isLt
  have hi2 : (i 2).val < 10000 := (i 2).isLt
  have hlt : 250 * (i 0).val + 249 < cfg1.N := by rw [show cfg1.N = 500 from N_1]; omega
  refine ⟨⟨250 * (i 0).val + 249, hlt⟩, (flush1_4 _).mpr (by show (250 * (i 0).val + 249) % 250 = 249; omega), ?_⟩
  obtain ⟨e0, e1, e2⟩ := out_index ⟨250 * (i 0).val + 249, hlt⟩
  have e0' : win1_4.index ⟨250 * (i 0).val + 249, hlt⟩ (0 : Fin 3) = (i 0).val := by rw [e0]; show (250 * (i 0).val + 249) / 250 = _; omega
  show i ∈ ((View.whole main_v10).slice (win1_4.rect ⟨250 * (i 0).val + 249, hlt⟩)).set
  rw [View.set_slice_whole, Rect.mem_set_unit]
  intro a
  match a with
  | ⟨0, _⟩ =>
    show win1_4.index ⟨250 * (i 0).val + 249, hlt⟩ (0 : Fin 3) * 1 ≤ (i 0).val ∧ (i 0).val < win1_4.index ⟨250 * (i 0).val + 249, hlt⟩ (0 : Fin 3) * 1 + 1
    omega
  | ⟨1, _⟩ =>
    show win1_4.index ⟨250 * (i 0).val + 249, hlt⟩ (1 : Fin 3) * 3 ≤ (i 1).val ∧ (i 1).val < win1_4.index ⟨250 * (i 0).val + 249, hlt⟩ (1 : Fin 3) * 3 + 3
    omega
  | ⟨2, _⟩ =>
    show win1_4.index ⟨250 * (i 0).val + 249, hlt⟩ (2 : Fin 3) * 10000 ≤ (i 2).val ∧ (i 2).val < win1_4.index ⟨250 * (i 0).val + 249, hlt⟩ (2 : Fin 3) * 10000 + 10000
    omega

/-- So the result array ends holding, half by half, the sum of the half's contributions. -/
theorem final (c : Dev nD) : (dat1 V c).arrAt 4 cfg1.N = halfSum V c :=
  (dat1 V c).arrAt_eq_of_cover 4 (halfSum V c) (flushed_eq V c) (cover c)

end

end Cert.KernelIdeal.KRegion1

end
-- ==== Proof.KBlock.lean ====
/-
  One grid point of the force accumulation, read element by element over the extended reals.

  A grid point holds 1000 pairs. Pair `q` carries an index word (the atom its force lands on), 64 gathered slopes
  `g q d`, the derivatives `c k q d` along the three directions `k`, and the grid point shares the 64 scales `w d`.
  The pair's force along `k` is `f k q = 0 - ∑ d, g q d · c k q d · w d`. The one-hot block `h q a` is `1` when pair
  `q`'s index word is the word of atom `a` and `0` otherwise, so the matrix product `∑ q, f k q · h q a` collects, for
  atom `a` and direction `k`, the forces of the grid point's pairs that land on `a`. A change of float format is the
  identity on the extended reals, so the narrowing of both factors before the product leaves these values as they are.
  The output block starts at zero and each grid point adds its contribution to what the block holds.
-/
import proofs.«426470_j1975684956437_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.KBlock

open Cert.KernelIdeal Cert.KernelIdeal.Gen Idealize.ShloMosaic Idealize.ShloMosaic.ValueIdx

/-! ## The layout operations of this block, read at an index -/

section Layout
variable {α : Type}

/-- A `[1, 1000, 64]` array repeated along a leading axis of extent 3 reads, at `(k, q, d)`, its one slab at `(q, d)`. -/
theorem bcast_slab_apply (v : S1x1000x64.Idx → α) (k : Fin 3) (q : Fin 1000) (d : Fin 64) :
    broadcastTo S3x1000x64 v broadcasts_S1x1000x64_S3x1000x64 (ix3 k q d) = v (ix3 0 q d) :=
  broadcastTo_apply v _ (ix3 k q d) (ix3 0 q d) fun ax => match ax with
    | ⟨0, _⟩ => rfl
    | ⟨1, _⟩ => rfl
    | ⟨2, _⟩ => rfl

/-- A `[1, 1, 64]` array repeated along two leading axes reads, at `(k, q, d)`, its one row at `d`. -/
theorem bcast_row_apply (v : S1x1x64.Idx → α) (k : Fin 3) (q : Fin 1000) (d : Fin 64) :
    broadcastTo S3x1000x64 v broadcasts_S1x1x64_S3x1000x64 (ix3 k q d) = v (ix3 0 0 d) :=
  broadcastTo_apply v _ (ix3 k q d) (ix3 0 0 d) fun ax => match ax with
    | ⟨0, _⟩ => rfl
    | ⟨1, _⟩ => rfl
    | ⟨2, _⟩ => rfl

/-- A `[64]` vector viewed as `[1, 1, 64]` reads, at `(u, u', d)`, the vector at `d`. -/
theorem cast_row_apply (v : S64.Idx → α) (u u' : Fin 1) (d : Fin 64) :
    shapeCast S1x1x64 v shapeCasts_S64_S1x1x64 (ix3 u u' d) = v (ix1 d) :=
  shapeCast_apply v _ _ _ (by
    have hu : u.val = 0 := by omega
    have hu' : u'.val = 0 := by omega
    rw [Shape.rowMajor_val_three, Shape.rowMajor_val_one]
    show d.val = (u.val * 1 + u'.val) * 64 + d.val
    omega)

/-- A `[1000, 1]` column repeated along its unit axis to `[1000, 10000]` reads, at `(q, a)`, the column at `q`. -/
theorem bcast_col_apply (v : S1000x1.Idx → α) (q : Fin 1000) (a : Fin 10000) :
    broadcastTo S1000x10000 v broadcasts_S1000x1_S1000x10000 (ix2 q a) = v (ix2 q 0) :=
  broadcastTo_apply v _ (ix2 q a) (ix2 q 0) fun ax => match ax with
    | ⟨0, _⟩ => rfl
    | ⟨1, _⟩ => rfl

end Layout

/-! ## The contraction: pair `q` is the one contracted coordinate -/

/-- The left operand's row coordinate is the output's row. -/
theorem lhs_axis0 (j : S3x10000.Idx) (c : dot_S3x1000_S1000x10000_S3x10000_1_0_0_1_n_n.contr.Idx) :
    (dot_S3x1000_S1000x10000_S3x10000_1_0_0_1_n_n.lhsIdx j c 0).val = (j 0).val := rfl

/-- The left operand's column coordinate is the contracted one. -/
theorem lhs_axis1 (j : S3x10000.Idx) (c : dot_S3x1000_S1000x10000_S3x10000_1_0_0_1_n_n.contr.Idx) :
    (dot_S3x1000_S1000x10000_S3x10000_1_0_0_1_n_n.lhsIdx j c 1).val = (c ⟨0, by decide⟩).val :=
  DotDims.lhsIdx_val_of_single _ rfl j c

/-- The right operand's row coordinate is the contracted one. -/
theorem rhs_axis0 (j : S3x10000.Idx) (c : dot_S3x1000_S1000x10000_S3x10000_1_0_0_1_n_n.contr.Idx) :
    (dot_S3x1000_S1000x10000_S3x10000_1_0_0_1_n_n.rhsIdx j c 0).val = (c ⟨0, by decide⟩).val :=
  DotDims.rhsIdx_val_of_single _ rfl j c

/-- The right operand's column coordinate is the output's column. -/
theorem rhs_axis1 (j : S3x10000.Idx) (c : dot_S3x1000_S1000x10000_S3x10000_1_0_0_1_n_n.contr.Idx) :
    (dot_S3x1000_S1000x10000_S3x10000_1_0_0_1_n_n.rhsIdx j c 1).val = (j 1).val := rfl

/-- The `[3, 1000] × [1000, 10000]` product into the zero block, at `(k, a)`: the sum over the pairs `q` of the left
    operand at `(k, q)` times the right operand at `(q, a)`. -/
theorem matmul_ix (l : FVec Ideal S3x1000 .bf16) (r : FVec Ideal S1000x10000 .bf16) (k : Fin 3) (a : Fin 10000) :
    matmul dot_S3x1000_S1000x10000_S3x10000_1_0_0_1_n_n none l r (constant (F := Ideal) S3x10000 .f32 0x00000000#32) (ix2 k a)
      = ∑ q : Fin 1000, l (ix2 k q) * r (ix2 q a) := by
  refine (Ideal.matmul_constant_zero_apply _ none l r (ix2 k a)).trans ?_
  rw [← Equiv.sum_comp (contrEquiv1 dot_S3x1000_S1000x10000_S3x10000_1_0_0_1_n_n 1000 rfl rfl).symm]
  refine Finset.sum_congr rfl fun q _ => ?_
  have hl : dot_S3x1000_S1000x10000_S3x10000_1_0_0_1_n_n.lhsIdx (ix2 k a)
      ((contrEquiv1 dot_S3x1000_S1000x10000_S3x10000_1_0_0_1_n_n 1000 rfl rfl).symm q) = ix2 k q := by
    funext ax
    refine Fin.ext ?_
    match ax with
    | ⟨0, _⟩ => exact lhs_axis0 _ _
    | ⟨1, _⟩ => exact (lhs_axis1 _ _).trans (contrEquiv1_symm_val _ 1000 rfl rfl q)
  have hr : dot_S3x1000_S1000x10000_S3x10000_1_0_0_1_n_n.rhsIdx (ix2 k a)
      ((contrEquiv1 dot_S3x1000_S1000x10000_S3x10000_1_0_0_1_n_n 1000 rfl rfl).symm q) = ix2 q a := by
    funext ax
    refine Fin.ext ?_
    match ax with
    | ⟨0, _⟩ => exact (rhs_axis0 _ _).trans (contrEquiv1_symm_val _ 1000 rfl rfl q)
    | ⟨1, _⟩ => exact rhs_axis1 _ _
  rw [hl, hr]

/-! ## The lane sum -/

/-- The sum over the 64 lanes of a `[3, 1000, 64]` array, at `(k, q)`. -/
theorem laneSum_ix (v : FVec Ideal S3x1000x64 .f32) (hφ : FKind.Formats .f32)
    (hacc : (0x00000000#32 : BitVec 32) = FKind.add.neutral .f32 hφ) (k : Fin 3) (q : Fin 1000) :
    multiReduction (F := Ideal) .add [2] S3x1000 v 0x00000000#32 reduces_S3x1000x64_S3x1000 hφ hacc (ix2 k q)
      = ∑ d : Fin 64, v (ix3 k q d) := by
  refine (Ideal.multiReduction_add_single v _ reduces_S3x1000x64_S3x1000 hφ hacc (ix2 k q)).trans ?_
  refine Finset.sum_congr rfl fun d _ => congrArg v ?_
  funext ax
  match ax with
  | ⟨0, _⟩ => rfl
  | ⟨1, _⟩ => rfl
  | ⟨2, _⟩ => rfl

/-! ## The one-hot block -/

/-- The bit `1` widened to 32 bits and read signed is `1`. -/
theorem widen_one : (((1#1 : BitVec 1).setWidth 32).toInt : Int) = 1 := by decide

/-- The bit `0` widened to 32 bits and read signed is `0`. -/
theorem widen_zero : (((0#1 : BitVec 1).setWidth 32).toInt : Int) = 0 := by decide

/-- The one-hot block at `(q, a)`: `1` when pair `q`'s index word names atom `a`, else `0`. -/
theorem onehot_apply (x0 : Vec Ideal S1000x1 .i32) (q : Fin 1000) (a : Fin 10000) :
    k1_pay3 (F := Ideal) x0 (ix2 q a) = if x0 (ix2 q 0) = BitVec.ofNat 32 a.val then (1 : EReal) else 0 := by
  unfold k1_pay3
  rw [shapeCast_self, shapeCast_self, truncf_apply, sitofp_apply, extui_apply]
  show FloatOps.sitofp (F := Ideal) .f32 ((IntOp.cmpi .eq
        (broadcastTo S1000x10000 x0 broadcasts_S1000x1_S1000x10000 (ix2 q a))
        (broadcastTo S1000x10000 (iota .tc S1x10000 32 [1] iota_S1x10000_d1_w32) broadcasts_S1x10000_S1000x10000 (ix2 q a))).setWidth 32) = _
  rw [bcast_col_apply, broadcastTo_1b_ab_apply, iota_single_apply]
  show ((((IntOp.cmpi .eq (x0 (ix2 q 0)) (BitVec.ofNat 32 a.val)).setWidth 32).toInt : ℝ) : EReal) = _
  by_cases h : x0 (ix2 q 0) = BitVec.ofNat 32 a.val
  · rw [if_pos h, StableHlo.Predicate.cmpi_eq_iff.mpr h, widen_one]
    norm_num
  · rw [if_neg h, eq_zero_of_ne_one (fun hc => h (StableHlo.Predicate.cmpi_eq_iff.mp hc)), widen_zero]
    norm_num

/-! ## One grid point's contribution, its starting block, and its accumulation step -/

/-- The product under the lane sum at `(k, q, d)`: the gathered slope at `(q, d)`, the derivative along `k` at
    `(k, q, d)` and the scale at `d`. -/
theorem product_apply (x2 : FVec Ideal S1000x64 .f32) (x1 : FVec Ideal S3x1000x64 .f32) (x3 : FVec Ideal S64 .f32)
    (k : Fin 3) (q : Fin 1000) (d : Fin 64) :
    mulf (F := Ideal)
        (mulf (F := Ideal)
          (broadcastTo S3x1000x64
            (shapeCast S1x1000x64 (shapeCast S1000x64 x2 shapeCasts_S1000x64_S1000x64) shapeCasts_S1000x64_S1x1000x64)
            broadcasts_S1x1000x64_S3x1000x64)
          (shapeCast S3x1000x64 x1 shapeCasts_S3x1000x64_S3x1000x64))
        (broadcastTo S3x1000x64 (shapeCast S1x1x64 (shapeCast S64 x3 shapeCasts_S64_S64) shapeCasts_S64_S1x1x64)
          broadcasts_S1x1x64_S3x1000x64) (ix3 k q d)
      = x2 (ix2 q d) * x1 (ix3 k q d) * x3 (ix1 d) := by
  rw [shapeCast_self, shapeCast_self, shapeCast_self, mulf_apply, mulf_apply, bcast_slab_apply, shapeCast_ab_1ab_apply,
    bcast_row_apply, cast_row_apply]

/-- The contribution of one grid point to the force on atom `a` along `k`: the sum over its 1000 pairs of the pair's
    force times the one-hot factor of the pair's index word against `a`. -/
theorem contribution_apply (x0 : Vec Ideal S1000x1 .i32) (x1 : Vec Ideal S3x1000x64 .f32) (x2 : Vec Ideal S1000x64 .f32) (x3 : Vec Ideal S64 .f32)
    (k : Fin 3) (a : Fin 10000) :
    k1_pay5 (F := Ideal) x2 x1 x3 (k1_pay3 (F := Ideal) x0) (ix3 0 k a)
      = ∑ q : Fin 1000, (0 - ∑ d : Fin 64, x2 (ix2 q d) * x1 (ix3 k q d) * x3 (ix1 d))
          * (if x0 (ix2 q 0) = BitVec.ofNat 32 a.val then (1 : EReal) else 0) := by
  unfold k1_pay5
  refine (shapeCast_ab_1ab_apply _ _ 0 k a).trans ?_
  refine (matmul_ix _ _ k a).trans ?_
  refine Finset.sum_congr rfl fun q _ => ?_
  rw [onehot_apply, truncf_apply, subf_apply, broadcast_apply]
  refine congrArg (· * _) ?_
  refine congrArg₂ (· - ·) Ideal.ofBits_zero_f32 ?_
  refine (laneSum_ix _ _ _ k q).trans ?_
  exact Finset.sum_congr rfl fun d _ => product_apply x2 x1 x3 k q d

/-- The block a grid point starts from is zero everywhere. -/
theorem zero_apply (j : S1x3x10000.Idx) : k1_pay2 (F := Ideal) j = 0 := by
  unfold k1_pay2
  exact Ideal.ofBits_zero_f32

/-- The accumulation step adds the contribution to what the output block holds, element by element. -/
theorem step_apply (xo v : FVec Ideal S1x3x10000 .f32) (j : S1x3x10000.Idx) :
    k1_pay1 (F := Ideal) (k1_pay4 (F := Ideal) xo) v j = xo j + v j := by
  unfold k1_pay1 k1_pay4
  rw [shapeCast_self]
  rfl

end Cert.KernelIdeal.KBlock

end
-- ==== Proof.Algebra.lean ====
/-
  The kernel's arrangement of one pair's term against the specification's.

  The kernel multiplies the slope by the derivative first and by the product `w1 · wl` second; the specification
  multiplies the derivative by `w1` first and by `wl` last: the same product, multiplication of extended reals being
  associative. The kernel takes `0 - s` where the specification negates. The kernel selects a pair for atom `a` by
  multiplying with 1 or 0 according to whether the pair's neighbour word is the word of `a`; the specification by a
  case distinction on the word's signed value: the same test for an atom number below 2³¹.
-/
import proofs.«426470_j1975684956437_3_alg».proof.Proof.Spec
import Idealize.ShloMosaic.Lib.StableHlo.Predicate

noncomputable section

open scoped BigOperators

namespace PairForces

open Idealize.ShloMosaic Idealize.ShloMosaic.ValueIdx

/-- A 32-bit word is the word of atom number `a` exactly when its signed value is `a`. -/
theorem word_eq_iff (w : BitVec 32) (a : Fin 10000) : w = BitVec.ofNat 32 a.val ↔ w.toInt = (a.val : Int) := by
  have ha : a.val < 2 ^ 31 := by have := a.isLt; omega
  constructor
  · rintro rfl
    exact StableHlo.Predicate.toInt_ofNat_small a.val ha
  · intro h
    apply BitVec.eq_of_toInt_eq
    rw [h, StableHlo.Predicate.toInt_ofNat_small a.val ha]

/-- One pair's term as the kernel forms it is the specification's. -/
theorem kernel_term (x : SCoef.Idx → EReal) (cd : SDeriv.Idx → EReal) (w1 b1 wl : SDesc.Idx → EReal)
    (ci ni : SPair.Idx → BitVec 32) (k : Fin 3) (a : Fin 10000) (p : Fin 500000) :
    (0 - ∑ d : Fin 64, slope x w1 b1 (atomOf (ci (ix1 p))) d * cd (ix4 0 k p d) * (w1 (ix1 d) * wl (ix1 d)))
        * (if ni (ix1 p) = BitVec.ofNat 32 a.val then (1 : EReal) else 0)
      = if (ni (ix1 p)).toInt = (a.val : Int) then pairForce x cd w1 b1 wl ci k p else 0 := by
  have hsum : (∑ d : Fin 64, slope x w1 b1 (atomOf (ci (ix1 p))) d * cd (ix4 0 k p d) * (w1 (ix1 d) * wl (ix1 d)))
      = ∑ d : Fin 64, slope x w1 b1 (atomOf (ci (ix1 p))) d * (cd (ix4 0 k p d) * w1 (ix1 d)) * wl (ix1 d) :=
    Finset.sum_congr rfl fun d _ => by
      rw [← mul_assoc, mul_assoc (slope x w1 b1 (atomOf (ci (ix1 p))) d) (cd (ix4 0 k p d)) (w1 (ix1 d))]
  by_cases h : ni (ix1 p) = BitVec.ofNat 32 a.val
  · rw [if_pos h, if_pos ((word_eq_iff _ a).mp h), mul_one, zero_sub, hsum]
    rfl
  · rw [if_neg h, if_neg (fun h' => h ((word_eq_iff _ a).mpr h')), mul_zero]

end PairForces

end
-- ==== Proof.KForce.lean ====
/-
  The kernel's force result as the specification's function of the arguments.

  Point `t` of the second pallas_call reads block `t` (1000 consecutive pairs) of the neighbour column, of the
  derivatives and of the gathered slopes, and the whole scale vector; its contribution to atom `a` along `k` is the
  sum over the block's pairs of the pair's term times 1 or 0 as the pair's neighbour is `a` or not. A half's block of
  the result is the sum of its 250 points' contributions, the host adds the two halves, and 2 · 250 · 1000 pairs are
  all 500000: the force is the sum over every pair of its term where its neighbour is `a`.
-/
import proofs.«426470_j1975684956437_3_alg».proof.Proof.KRegion1
import proofs.«426470_j1975684956437_3_alg».proof.Proof.KBlock
import proofs.«426470_j1975684956437_3_alg».proof.Proof.Spec
import proofs.«426470_j1975684956437_3_alg».proof.Proof.Algebra
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KForce

open Cert.KernelIdeal Cert.KernelIdeal.Gen Cert.KernelIdeal.KRegion1 PairForces
open Idealize.ShloMosaic Idealize.ShloMosaic.TcCoe Idealize.ShloMosaic.ValueIdx Idealize.SL.Sem

section Blocks
variable (V : (c : Dev nD) → (b : Ref sig .tc) → Buf (Elt Ideal) ((c : Thread nD τ).loc b))

/-- The region's four input arrays, at their literal types. -/
abbrev narr (c : Dev nD) : S500000x1.Idx → BitVec 32 := V c main_v8
abbrev darr (c : Dev nD) : S3x500000x64.Idx → EReal := V c main_v1
abbrev garr (c : Dev nD) : S500000x64.Idx → EReal := V c main_v7
abbrev sarr (c : Dev nD) : S64.Idx → EReal := V c main_v9

/-- The input windows' block indices at point `t`: block `t` along the pair axis, zero elsewhere. -/
theorem in_index : ∀ t : Fin cfg1.N, win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0
    ∧ win1_3.index t (0 : Fin 1) = 0 :=
  (by decide +kernel : ∀ t : Fin grid1.N, _)

/-- The pair at place `q` of block `t`. -/
def pairOf (t : Fin cfg1.N) (q : Fin 1000) : Fin 500000 :=
  ⟨t.val * 1000 + q.val, by have := lt_of_lt_of_eq t.isLt N_1; have := q.isLt; omega⟩

theorem nblk_apply (c : Dev nD) (t : Fin cfg1.N) (q : Fin 1000) :
    nblk V c t (ix2 q 0) = narr V c (ix2 (pairOf t q) 0) := by
  obtain ⟨e00, e01, -⟩ := in_index t
  show iblk1 V c 0 t (ix2 q 0) = _
  unfold iblk1
  rw [View.read_apply]
  show narr V c _ = _
  congr 1
  funext a
  apply Fin.ext
  match a with
  | ⟨0, _⟩ => show win1_0.index t (0 : Fin 2) * 1000 + 1 * q.val = t.val * 1000 + q.val; rw [e00]; omega
  | ⟨1, _⟩ => show win1_0.index t (1 : Fin 2) * 1 + 1 * 0 = 0; rw [e01]

theorem gblk_apply (c : Dev nD) (t : Fin cfg1.N) (q : Fin 1000) (d : Fin 64) :
    gblk V c t (ix2 q d) = garr V c (ix2 (pairOf t q) d) := by
  obtain ⟨-, -, -, -, -, e20, e21, -⟩ := in_index t
  show iblk1 V c 2 t (ix2 q d) = _
  unfold iblk1
  rw [View.read_apply]
  show garr V c _ = _
  congr 1
  funext a
  apply Fin.ext
  match a with
  | ⟨0, _⟩ => show win1_2.index t (0 : Fin 2) * 1000 + 1 * q.val = t.val * 1000 + q.val; rw [e20]; omega
  | ⟨1, _⟩ => show win1_2.index t (1 : Fin 2) * 64 + 1 * d.val = d.val; rw [e21]; omega

theorem dblk_apply (c : Dev nD) (t : Fin cfg1.N) (k : Fin 3) (q : Fin 1000) (d : Fin 64) :
    dblk V c t (ix3 k q d) = darr V c (ix3 k (pairOf t q) d) := by
  obtain ⟨-, -, e10, e11, e12, -⟩ := in_index t
  show iblk1 V c 1 t (ix3 k q d) = _
  unfold iblk1
  rw [View.read_apply]
  show darr V c _ = _
  congr 1
  funext a
  apply Fin.ext
  match a with
  | ⟨0, _⟩ => show win1_1.index t (0 : Fin 3) * 3 + 1 * k.val = k.val; rw [e10]; omega
  | ⟨1, _⟩ => show win1_1.index t (1 : Fin 3) * 1000 + 1 * q.val = t.val * 1000 + q.val; rw [e11]; omega
  | ⟨2, _⟩ => show win1_1.index t (2 : Fin 3) * 64 + 1 * d.val = d.val; rw [e12]; omega

theorem sblk_apply (c : Dev nD) (t : Fin cfg1.N) (d : Fin 64) :
    sblk V c t (ix1 d) = sarr V c (ix1 d) := by
  obtain ⟨-, -, -, -, -, -, -, e30⟩ := in_index t
  show iblk1 V c 3 t (ix1 d) = _
  unfold iblk1
  rw [View.read_apply]
  show sarr V c _ = _
  congr 1
  funext a
  apply Fin.ext
  match a with
  | ⟨0, _⟩ => show win1_3.index t (0 : Fin 1) * 64 + 1 * d.val = d.val; rw [e30]; omega

/-- What point `t` adds at atom `a` along `k`, from the region's input arrays. -/
theorem pointVal_apply (c : Dev nD) (t : Fin cfg1.N) (k : Fin 3) (a : Fin 10000) :
    pointVal V c t (ix3 0 k a) = ∑ q : Fin 1000,
      (0 - ∑ d : Fin 64, garr V c (ix2 (pairOf t q) d)
            * darr V c (ix3 k (pairOf t q) d) * sarr V c (ix1 d))
        * (if narr V c (ix2 (pairOf t q) 0) = BitVec.ofNat 32 a.val then (1 : EReal) else 0) := by
  unfold pointVal
  rw [KBlock.contribution_apply]
  refine Finset.sum_congr rfl fun q _ => ?_
  have hsum : (∑ d : Fin 64, gblk V c t (ix2 q d) * dblk V c t (ix3 k q d) * sblk V c t (ix1 d))
      = ∑ d : Fin 64, garr V c (ix2 (pairOf t q) d)
            * darr V c (ix3 k (pairOf t q) d) * sarr V c (ix1 d) :=
    Finset.sum_congr rfl fun d _ => by rw [gblk_apply V c t q d, dblk_apply V c t k q d, sblk_apply V c t d]
  rw [hsum, nblk_apply V c t q]

/-- A half's block of the result at an entry: its 250 points' contributions there. -/
theorem halfSum_apply (c : Dev nD) (h : Fin 2) (k : Fin 3) (a : Fin 10000) :
    halfSum V c (ix3 h k a) = ∑ i : Fin 250, pointVal V c ⟨250 * h.val + i.val, by rw [show cfg1.N = 500 from N_1]; have := h.isLt; have := i.isLt; omega⟩ (ix3 0 k a) := by
  unfold halfSum
  rw [← Fin.sum_univ_eq_sum_range (fun i => pointAt V c (250 * h.val + i) (ix3 0 k a)) 250]
  exact Finset.sum_congr rfl fun i _ => congrFun (pointAt_of_lt V c _ _) _

end Blocks

section Tail
variable (m : (ℓ : Loc nD τ sig) → Buf (Elt Ideal) ℓ) (ρ : Dev nD → PrngReg)

/-- After the second pallas_call the two halves' blocks are added: the force on atom `a` along `k` is the sum over the
    two halves of the result array's entries. -/
theorem tail (c : Dev nD) (A : S2x3x10000.Idx → EReal) (hA : W6 m ρ c (Proc.devRef .tc main_v10) = A) (k : Fin 3) (a : Fin 10000) :
    (W7 m ρ c (Proc.devRef .tc main_v12) : S1x3x10000.Idx → EReal) (ix3 0 k a) = ∑ h : Fin 2, A (ix3 h k a) := by
  show StableHlo.after hostOps2 (W6 m ρ c) (Proc.devRef .tc main_v12) (ix3 0 k a) = _
  after_results
  rw [hA]
  rw [broadcastInDim_apply _ bcast_S3x10000_S1x3x10000_1_2 _ (ix3 0 k a) (ix2 k a) (fun a' => match a' with
    | ⟨0, _⟩ => by show k.val = if (3 : Nat) = 1 then 0 else k.val; rw [if_neg (by decide)]
    | ⟨1, _⟩ => by show a.val = if (10000 : Nat) = 1 then 0 else a.val; rw [if_neg (by decide)])]
  simp only [Host.reduceAdd, Ideal.hostReduceAdd_def]
  rw [Ideal.hostReduceAdd_single reducesTo_S2x3x10000_S3x10000_d0 (by decide)]
  show Ideal.ofBits .f32 0x00000000#32 + _ = _
  rw [Ideal.ofBits_zero_f32, zero_add]
  exact Finset.sum_congr rfl fun h _ => congrArg A (funext fun a' => Fin.ext (by
    match a' with
    | ⟨0, _⟩ => rfl
    | ⟨1, _⟩ => rfl
    | ⟨2, _⟩ => rfl))

/-- The force buffer at the last boundary is the specification's force, given what the second pallas_call's input
    arrays hold when it is entered. -/
theorem force_eq (c : Dev nD) (x : SCoef.Idx → EReal) (cd : SDeriv.Idx → EReal) (w1 b1 wl : SDesc.Idx → EReal)
    (ci ni : SPair.Idx → BitVec 32)
    (hN : narr (V5 m ρ) c = fun j => ni (ix1 (j 0)))
    (hD : darr (V5 m ρ) c = fun j => cd (ix4 0 (j 0) (j 1) (j 2)))
    (hS : sarr (V5 m ρ) c = fun j => w1 j * wl j)
    (hG : garr (V5 m ρ) c = fun j => slope x w1 b1 (atomOf (ci (ix1 (j 0)))) (j 1)) :
    (W7 m ρ c (Proc.devRef .tc main_v12) : S1x3x10000.Idx → EReal) = force x cd w1 b1 wl ci ni := by
  funext j
  obtain ⟨k, a, rfl⟩ : ∃ (k : Fin 3) (a : Fin 10000), j = ix3 0 k a := ⟨j 1, j 2, by
    funext b
    match b with
    | ⟨0, _⟩ => exact Fin.ext (by have h1 : (j 0).val < 1 := (j 0).isLt; show (j 0).val = 0; omega)
    | ⟨1, _⟩ => rfl
    | ⟨2, _⟩ => rfl⟩
  have key : (∑ h : Fin 2, halfSum (V5 m ρ) c (ix3 h k a)) = force x cd w1 b1 wl ci ni (ix3 0 k a) := by
    unfold force
    rw [sum_pairs]
    refine Finset.sum_congr rfl fun h _ => ?_
    rw [halfSum_apply]
    refine Finset.sum_congr rfl fun i _ => ?_
    rw [pointVal_apply]
    refine Finset.sum_congr rfl fun q _ => ?_
    have hp : pairOf ⟨250 * h.val + i.val, by rw [show cfg1.N = 500 from N_1]; have := h.isLt; have := i.isLt; omega⟩ q = pairAt h i q :=
      Fin.ext (by show (250 * h.val + i.val) * 1000 + q.val = (h.val * 250 + i.val) * 1000 + q.val; omega)
    rw [hp, hG, hD, hS, hN]
    exact kernel_term x cd w1 b1 wl ci ni k a (pairAt h i q)
  exact (tail m ρ c (halfSum (V5 m ρ) c) ((W6_arr m ρ c 4).trans (final (V5 m ρ) c)) k a).trans key

end Tail

end Cert.KernelIdeal.KForce

end
-- ==== Proof.KValue.lean ====
/-
  The kernel program's two results as the specification's functions of its arguments.
-/
import proofs.«426470_j1975684956437_3_alg».proof.Proof.KRegion0
import proofs.«426470_j1975684956437_3_alg».proof.Proof.KHost
import proofs.«426470_j1975684956437_3_alg».proof.Proof.KForce

noncomputable section

namespace Cert.KernelIdeal.KValue

open Cert.KernelIdeal Cert.KernelIdeal.Gen PairForces
open Idealize.ShloMosaic Idealize.ShloMosaic.TcCoe Idealize.ShloMosaic.ValueIdx Idealize.SL.Sem

variable (m : (ℓ : Loc nD τ sig) → Buf (Elt Ideal) ℓ) (ρ : Dev nD → PrngReg)

/-- The energy buffer ends at the specification's energy: the first pallas_call's total, divided and biased by the host. -/
theorem energy_eq (c : Dev nD) :
    (W7 m ρ c (Proc.devRef .tc main_v6) : S1.Idx → EReal)
      = energy (m ((c : Thread nD τ).loc main_arg0)) (m ((c : Thread nD τ).loc main_arg2)) (m ((c : Thread nD τ).loc main_arg3))
          (m ((c : Thread nD τ).loc main_arg4)) (m ((c : Thread nD τ).loc main_arg5)) :=
  KHost.energy_out m ρ c _ (KRegion0.totals m ρ c)

/-- The force buffer ends at the specification's force, the central-atom indices being in range. -/
theorem force_eq (c : Dev nD) (h6 : InRange (m ((c : Thread nD τ).loc main_arg6))) :
    (W7 m ρ c (Proc.devRef .tc main_v12) : S1x3x10000.Idx → EReal)
      = force (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (m ((c : Thread nD τ).loc main_arg7)) :=
  KForce.force_eq m ρ c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7))
    (KHost.neigh m ρ c) (KHost.deriv m ρ c) (KHost.scale m ρ c)
    (KHost.gathered m ρ c _ (KRegion0.slopes m ρ c) h6)

end Cert.KernelIdeal.KValue

end
-- ==== Proof.lean ====
/-
  The certificate of a pair-force kernel against its reference, over the extended reals.

  Both programs take per-atom descriptors `x`, per-pair descriptor derivatives `cd`, weights `w1 b1 wl bl` and, per
  pair, a central and a neighbour atom index, and return an energy and a force per atom and direction
  (Proof/Spec.lean states both as functions of the arguments).
  The reference is one host program: activations and slopes of every atom, a row gather of the slopes at the central
  indices, the pair forces, a scatter-add at the neighbour indices. The kernel computes the activations, slopes and the
  total in a first pallas_call, gathers on the host, and in a second pallas_call, 1000 pairs at a time, forms the pair
  forces and adds them onto the atoms by a product with a one-hot block, one accumulator per half of the pairs; the
  host adds the two halves. Sums over the extended reals may be taken in any order and grouping, a product with 1 or
  0 keeps or drops a term, and products re-associate, so the two results are the same functions — where every index
  names an atom: a negative neighbour index is wrapped by the reference and dropped by the kernel, an out-of-range
  central index is clamped by the reference and filled by the kernel. The precondition therefore asks both index
  arrays to lie in `[0, 10000)`; the float inputs' finiteness is not used.
-/
import proofs.«426470_j1975684956437_3_alg».proof.Defs
import proofs.«426470_j1975684956437_3_alg».proof.Proof.Gen.Kernel
import proofs.«426470_j1975684956437_3_alg».proof.Proof.Gen.Kernel.Frame
import proofs.«426470_j1975684956437_3_alg».proof.Proof.Gen.KernelIdeal
import proofs.«426470_j1975684956437_3_alg».proof.Proof.Gen.KernelIdeal.Frame
import proofs.«426470_j1975684956437_3_alg».proof.Proof.Gen.ReferenceIdeal
import proofs.«426470_j1975684956437_3_alg».proof.Proof.Gen.ReferenceIdeal.Run
import proofs.«426470_j1975684956437_3_alg».proof.Proof.Gen.ReferenceIdeal.Read
import proofs.«426470_j1975684956437_3_alg».proof.Proof.Gen.Pre_finite_inputs
import proofs.«426470_j1975684956437_3_alg».proof.Proof.Spec
import proofs.«426470_j1975684956437_3_alg».proof.Proof.PreDecode
import proofs.«426470_j1975684956437_3_alg».proof.Proof.RefPair
import proofs.«426470_j1975684956437_3_alg».proof.Proof.RefValue
import proofs.«426470_j1975684956437_3_alg».proof.Proof.KRun
import proofs.«426470_j1975684956437_3_alg».proof.Proof.KValue
import Idealize.ShloMosaic.Adequacy
import Idealize.ShloMosaic.Init

noncomputable section

namespace Cert.Proof

open Idealize.ShloMosaic Idealize.ShloMosaic.TcCoe Idealize.SL.Sem PairForces

/-- The kernel program's run: both results at the specification's functions of its arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg)
    (h6 : ∀ c : Dev Cert.KernelIdeal.nD, InRange (m ((c.tc : Thread Cert.KernelIdeal.nD Cert.KernelIdeal.τ).loc Cert.KernelIdeal.main_arg6))) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v6)
          = energy (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_v12)
          = force (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono
    (fun r h c => ⟨(h c).1.trans (Cert.KernelIdeal.KValue.energy_eq m ρ c),
      (h c).2.1.trans (Cert.KernelIdeal.KValue.force_eq m ρ c (h6 c)), (h c).2.2⟩)
    (Cert.KernelIdeal.KRun.run_values (F := Ideal) m ρ)

/-- The reference program's run: both results at the same functions of its arguments, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (h6 : ∀ c : Dev Cert.ReferenceIdeal.nD, InRange (m ((c.tc : Thread Cert.ReferenceIdeal.nD Cert.ReferenceIdeal.τ).loc Cert.ReferenceIdeal.main_arg6)))
    (h7 : ∀ c : Dev Cert.ReferenceIdeal.nD, InRange (m ((c.tc : Thread Cert.ReferenceIdeal.nD Cert.ReferenceIdeal.τ).loc Cert.ReferenceIdeal.main_arg7))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v29)
          = energy (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v42)
          = force (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun r h c => ⟨(h c).1.trans ((Cert.ReferenceIdeal.Read.val_main_v29_eq _ _ _ _ _).trans (Cert.ReferenceIdeal.RefPair.energy_eq _ _ _ _ _)),
      (h c).2.1.trans ((Cert.ReferenceIdeal.Read.val_main_v42_eq _ _ _ _ _ _ _).trans
        (Cert.ReferenceIdeal.RefValue.force_eq_of_pair _ _ _ _ _ _ _ (h7 c) (Cert.ReferenceIdeal.RefPair.pair_eq _ _ _ _ _ _ (h6 c)))),
      (h c).2.2⟩)
    (Cert.ReferenceIdeal.Value.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run (Cert.ReferenceIdeal.defs (F := Ideal)) _ _).mono (fun _ h c => (h c).2.2) (Cert.ReferenceIdeal.Value.run (F := Ideal) m ρ)

/-- From memories that agree on the arguments, indices in range, both programs end at the specification's energy and
    force of the kernel's arguments. -/
theorem algebraic : Cert.algebraic_KernelIdeal_ReferenceIdeal := by
  intro m ρ m' ρ' hpre hagree
  have hR := fun c => Cert.PreDecode.inRange_of_pre _ _ _ _ _ _ _ _ (hpre c)
  refine ⟨_, _, kernel_run m ρ (fun c => (hR c).1), ?_⟩
  refine (θ_run (Cert.ReferenceIdeal.defs (F := Ideal)) _ _).mono (fun r h c => ?_)
    (reference_run m' ρ' (fun c => by rw [(hagree c).2.2.2.2.2.2.1]; exact (hR c).1)
      (fun c => by rw [(hagree c).2.2.2.2.2.2.2]; exact (hR c).2))
  obtain ⟨a0, a1, a2, a3, a4, a5, a6, a7⟩ := hagree c
  refine ⟨(h c).1.trans ?_, (h c).2.1.trans ?_, (h c).2.2⟩
  · rw [a0, a2, a3, a4, a5]
  · rw [a0, a1, a2, a3, a4, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
